-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S262144 : Shape := ⟨1, ![262144]⟩
abbrev S4096 : Shape := ⟨1, ![4096]⟩
abbrev S8x4096 : Shape := ⟨2, ![8, 4096]⟩
abbrev S4096x8 : Shape := ⟨2, ![4096, 8]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_arg5 : FVec F S4096x8 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg5
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_c_8 : IVec S_ 32 := constantI S_ 32 0#32
  let main_v24 : IVec S4096x4096 32 := broadcastInDim S4096x4096 ![] bcast_S_S4096x4096 main_c_8
  let main_v25 : IVec S4096x4096 1 := cmpi .sge main_arg1 main_v24
  let main_c_9 : IVec S_ 1 := constantI S_ 1 1#1
  let main_v26 : IVec S_ 1 := (fun x v => Host.reduce IntOp.andi x v reducesTo_S4096x4096_S_d0_1 h_S_) main_v25 main_c_9
  let main_v27 : IVec S_ 1 := andi main_v23 main_v26
  let main_c_10 : IVec S_ 32 := constantI S_ 32 16#32
  let main_v28 : IVec S4096x4096 32 := broadcastInDim S4096x4096 ![] bcast_S_S4096x4096 main_c_10
  let main_v29 : IVec S4096x4096 1 := cmpi .slt main_arg1 main_v28
  let main_c_11 : IVec S_ 1 := constantI S_ 1 1#1
  let main_v30 : IVec S_ 1 := (fun x v => Host.reduce IntOp.andi x v reducesTo_S4096x4096_S_d0_1 h_S_) main_v29 main_c_11
  let main_v31 : IVec S_ 1 := andi main_v27 main_v30
  main_v31

def fn {F : FTy → Type} [FloatOps F] (main_arg0 : FVec F S4x2048x4096 .f32) (main_arg1 : IVec S4096x4096 32) (main_arg2 : FVec F S262144 .f32) (main_arg3 : FVec F S4096 .f32) (main_arg4 : FVec F S8x4096 .f32) (main_arg5 : FVec F S4096x8 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg4
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg1 main_arg5 main_v13 main_v16
-- ==== Kernel.lean ====
abbrev S4x2048x4096 : Shape := ⟨3, ![4, 2048, 4096]⟩
abbrev S4096x4096 : Shape := ⟨2, ![4096, 4096]⟩
abbrev S262144 : Shape := ⟨1, ![262144]⟩
abbrev S4096 : Shape := ⟨1, ![4096]⟩
abbrev S8x4096 : Shape := ⟨2, ![8, 4096]⟩
abbrev S4096x8 : Shape := ⟨2, ![4096, 8]⟩
abbrev S4096x64 : Shape := ⟨2, ![4096, 64]⟩
abbrev S_ : Shape := ⟨0, ![]⟩
abbrev S64 : Shape := ⟨1, ![64]⟩
abbrev S1x4096 : Shape := ⟨2, ![1, 4096]⟩
abbrev S64x1 : Shape := ⟨2, ![64, 1]⟩
abbrev S64x4096 : Shape := ⟨2, ![64, 4096]⟩
abbrev S256x4096 : Shape := ⟨2, ![256, 4096]⟩
abbrev S256x64 : Shape := ⟨2, ![256, 64]⟩
abbrev S8192x4096 : Shape := ⟨2, ![8192, 4096]⟩
abbrev S64x8 : Shape := ⟨2, ![64, 8]⟩

abbrev nBuf : Space → Nat
  | .hbm => 38
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S262144, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S4096x64, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S64, .i32⟩
  | .hbm, ⟨27, _⟩ => ⟨S1x4096, .i32⟩
  | .hbm, ⟨28, _⟩ => ⟨S64x1, .i32⟩
  | .hbm, ⟨29, _⟩ => ⟨S64x4096, .i32⟩
  | .hbm, ⟨30, _⟩ => ⟨S64x4096, .i32⟩
  | .hbm, ⟨31, _⟩ => ⟨S64x4096, .i1⟩
  | .hbm, ⟨32, _⟩ => ⟨S64x4096, .bf16⟩
  | .hbm, ⟨33, _⟩ => ⟨S4096x4096, .bf16⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x64, .f32⟩
  | .local _ .vmem, ⟨3, _⟩ => ⟨S256x64, .f32⟩
  | .local _ .vmem, ⟨4, _⟩ => ⟨S64x4096, .bf16⟩
  | .local _ .vmem, ⟨5, _⟩ => ⟨S256x4096, .bf16⟩
  | .local _ .vmem, ⟨6, _⟩ => ⟨S256x4096, .bf16⟩
  | .local _ .vmem, ⟨7, _⟩ => ⟨S64x4096, .f32⟩
  | .local _ .vmem, ⟨8, _⟩ => ⟨S64x4096, .f32⟩
  | .local _ .vmem, ⟨9, _⟩ => ⟨S4096x4096, .bf16⟩
  | .local _ .vmem, ⟨10, _⟩ => ⟨S1x4096, .f32⟩
  | .local _ .vmem, ⟨11, _⟩ => ⟨S8x4096, .f32⟩
  | .local _ .vmem, ⟨12, _⟩ => ⟨S4096x8, .f32⟩
  | .local _ .vmem, ⟨13, _⟩ => ⟨S64x4096, .f32⟩
  | .local _ .vmem, ⟨14, _⟩ => ⟨S64x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S64x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S262144_S4096x64 : S262144.ShapeCasts S4096x64
  bcast_S_S4096 : S_.BroadcastsInDim S4096 (![] : Fin 0 → Fin S4096.rank)
  bcast_S4096_S1x4096_1 : S4096.BroadcastsInDim S1x4096 (![1] : Fin 1 → Fin S1x4096.rank)
  bcast_S64_S64x1_0 : S64.BroadcastsInDim S64x1 (![0] : Fin 1 → Fin S64x1.rank)
  bcast_S1x4096_S64x4096_0_1 : S1x4096.BroadcastsInDim S64x4096 (![0, 1] : Fin 2 → Fin S64x4096.rank)
  bcast_S64x1_S64x4096_0_1 : S64x1.BroadcastsInDim S64x4096 (![0, 1] : Fin 2 → Fin S64x4096.rank)
  inb_S256x4096_S256x4096_0_0 : ∀ a, (![0, 0] : Fin 2 → Nat) a + S256x4096.size a ≤ S256x4096.size a
  h_S256x4096 : 0 < S256x4096.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4096_S1x4096 : S4096.ShapeCasts S1x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S8x4096_S8x4096_0_0 : ∀ a, (![0, 0] : Fin 2 → Nat) a + S8x4096.size a ≤ S8x4096.size a
  h_S8x4096 : 0 < S8x4096.numel
  inb_S4096x8_S4096x8_0_0 : ∀ a, (![0, 0] : Fin 2 → Nat) a + S4096x8.size a ≤ S4096x8.size a
  h_S4096x8 : 0 < S4096x8.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  shapeCasts_S8192x4096_S4x2048x4096 : S8192x4096.ShapeCasts S4x2048x4096
  dot_S256x64_S64x4096_S256x4096_1_0_0_1_n_n_wf : DotDims.WF S256x64 S64x4096 S256x4096 [1] [0] [0] [1] [] []
  dot_S64x4096_S4096x4096_S64x4096_1_1_0_0_n_n_wf : DotDims.WF S64x4096 S4096x4096 S64x4096 [1] [1] [0] [0] [] []
  dot_S64x4096_S8x4096_S64x8_1_1_0_0_n_n_wf : DotDims.WF S64x4096 S8x4096 S64x8 [1] [1] [0] [0] [] []
  dot_S64x8_S4096x8_S64x4096_1_1_0_0_n_n_wf : DotDims.WF S64x8 S4096x8 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .bf16 = 32 ∨ (Rect.block (s := S64x4096) S64x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S8192x4096.size a
  hwx1_0 : ∀ i : grid1.Coords, EltTy.bits .f32 = 32 ∨ (Rect.block (s := S8192x4096) S64x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x4096.size a ≤ S8x4096.size a
  hwx1_3 : ∀ i : grid1.Coords, EltTy.bits .f32 = 32 ∨ (Rect.block (s := S8x4096) S8x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x8.size a ≤ S4096x8.size a
  hwx1_4 : ∀ i : grid1.Coords, EltTy.bits .f32 = 32 ∨ (Rect.block (s := S4096x8) S4096x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x4096.size a ≤ S8192x4096.size a
  hwx1_5 : ∀ i : grid1.Coords, EltTy.bits .f32 = 32 ∨ (Rect.block (s := S8192x4096) S64x4096.size (cc1_transform_5 i) (hinb1_5 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf
def dot_S64x4096_S8x4096_S64x8_1_1_0_0_n_n : DotDims S64x4096 S8x4096 S64x8 where
  lhsContracting := [1]
  rhsContracting := [1]
  lhsNonContracting := [0]
  rhsNonContracting := [0]
  lhsBatch := []
  rhsBatch := []
  wf := dot_S64x4096_S8x4096_S64x8_1_1_0_0_n_n_wf
def dot_S64x8_S4096x8_S64x4096_1_1_0_0_n_n : DotDims S64x8 S4096x8 S64x4096 where
  lhsContracting := [1]
  rhsContracting := [1]
  lhsNonContracting := [0]
  rhsNonContracting := [0]
  lhsBatch := []
  rhsBatch := []
  wf := dot_S64x8_S4096x8_S64x4096_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S8x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S4096x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S64x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S262144 : Shape := ⟨1, ![262144]⟩
abbrev S4096 : Shape := ⟨1, ![4096]⟩
abbrev S8x4096 : Shape := ⟨2, ![8, 4096]⟩
abbrev S4096x8 : Shape := ⟨2, ![4096, 8]⟩
abbrev S16 : Shape := ⟨1, ![16]⟩
abbrev S_ : Shape := ⟨0, ![]⟩
abbrev S4096x4096x1 : Shape := ⟨3, ![4096, 4096, 1]⟩
abbrev S262144x64 : Shape := ⟨2, ![262144, 64]⟩
abbrev S262144x1 : Shape := ⟨2, ![262144, 1]⟩
abbrev S1x1x4096 : Shape := ⟨3, ![1, 1, 4096]⟩
abbrev S4x2048x8 : Shape := ⟨3, ![4, 2048, 8]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S262144, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S16, .f32⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096x1, .i32⟩
  | .hbm, ⟨15, _⟩ => ⟨S4096x4096, .f32⟩
  | .hbm, ⟨16, _⟩ => ⟨S262144x64, .f32⟩
  | .hbm, ⟨17, _⟩ => ⟨S262144x1, .f32⟩
  | .hbm, ⟨18, _⟩ => ⟨S262144x64, .f32⟩
  | .hbm, ⟨19, _⟩ => ⟨S262144x64, .f32⟩
  | .hbm, ⟨20, _⟩ => ⟨S4096x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S4x2048x8, .f32⟩
  | .hbm, ⟨26, _⟩ => ⟨S4x2048x4096, .f32⟩
  | .hbm, ⟨27, _⟩ => ⟨S_, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4096x4096_S262144x64 : S4096x4096.ShapeCasts S262144x64
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  gather_S16_S4096x4096x1_S4096x4096_n_0_n_n_0_2_1_wf : GatherDims.WF S16 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf

class Facts : Prop extends Facts₀ where

variable [Facts]
-- ==== Proof.Spec.lean ====
/-
  The mathematics both programs compute, as one function of the six argument arrays, entry by entry, on the
  extended reals.

  A 4-bit code `q` stands for one of sixteen levels of a fixed codebook; any other word stands for zero
  (`level`). The weight matrix has the entry `level (q[o, i]) · s[o·64 + i/64]`: groups of 64 consecutive
  entries of a row share one scale, and the scales are listed row after row (`weight`). The result at
  `(b, t, o)` is the base product of row `(b, t)` of `x` with row `o` of the weights, plus the bias, plus four
  times the low-rank correction `(x · Aᵀ) · Bᵀ` (`result`).

  Also here: a sum against a one-hot row keeps the one selected term (`sum_mul_onehot`).
-/
import Idealize.ShloMosaic.PureOps.Ideal.Laws
import Idealize.ShloMosaic.Lib.ValueIdx

noncomputable section

open scoped BigOperators

namespace Cert.QLoRA

open Idealize.ShloMosaic Idealize.ShloMosaic.ValueIdx

/-- The codebook: the sixteen levels' words, in the order of their codes. -/
def word : Fin 16 → BitVec 32 :=
  ![0xBF800000#32, 0xBF3239B1#32, 0xBF066B30#32, 0xBECA32A0#32, 0xBE91A24D#32, 0xBE3D353F#32, 0xBDBA7871#32, 0x00000000#32,
    0x3DA2FAFF#32, 0x3E24CAE3#32, 0x3E7C04DD#32, 0x3EAD033A#32, 0x3EE1A4B8#32, 0x3F1007AB#32, 0x3F3913B3#32, 0x3F800000#32]

/-- The level a code word stands for: the codebook's entry for a code in `0 … 15`, zero for any other word. -/
def level (q : BitVec 32) : EReal :=
  if h : q.toNat < 16 then Ideal.ofBits .f32 (word ⟨q.toNat, h⟩) else Ideal.ofBits .f32 0x00000000#32

/-- The factor of the low-rank correction. -/
def four : EReal := Ideal.ofBits .f32 0x40800000#32

/-- Entry `(o, i)` of the weight matrix: the level of its code times the scale of its group of 64. -/
def weight (q : IVec ⟨2, ![4096, 4096]⟩ 32) (s : FVec Ideal ⟨1, ![262144]⟩ .f32) (o i : Fin 4096) : EReal :=
  level (q (ix2 o i)) * s (ix1 ⟨o.val * 64 + i.val / 64, by have := o.isLt; have := i.isLt; omega⟩)

/-- Entry `(b, t, o)` of the result: base product plus bias, plus four times the low-rank correction. -/
def result (x : FVec Ideal ⟨3, ![4, 2048, 4096]⟩ .f32) (q : IVec ⟨2, ![4096, 4096]⟩ 32) (s : FVec Ideal ⟨1, ![262144]⟩ .f32)
    (bias : FVec Ideal ⟨1, ![4096]⟩ .f32) (A : FVec Ideal ⟨2, ![8, 4096]⟩ .f32) (B : FVec Ideal ⟨2, ![4096, 8]⟩ .f32)
    (b : Fin 4) (t : Fin 2048) (o : Fin 4096) : EReal :=
  ((∑ i : Fin 4096, x (ix3 b t i) * weight q s o i) + bias (ix1 o))
    + four * ∑ r : Fin 8, (∑ i : Fin 4096, x (ix3 b t i) * A (ix2 r i)) * B (ix2 o r)

/-- The result as an array. -/
def resultArr (x : FVec Ideal ⟨3, ![4, 2048, 4096]⟩ .f32) (q : IVec ⟨2, ![4096, 4096]⟩ 32) (s : FVec Ideal ⟨1, ![262144]⟩ .f32)
    (bias : FVec Ideal ⟨1, ![4096]⟩ .f32) (A : FVec Ideal ⟨2, ![8, 4096]⟩ .f32) (B : FVec Ideal ⟨2, ![4096, 8]⟩ .f32) :
    FVec Ideal ⟨3, ![4, 2048, 4096]⟩ .f32 :=
  fun j => result x q s bias A B (j 0) (j 1) (j 2)

theorem resultArr_ix3 (x : FVec Ideal ⟨3, ![4, 2048, 4096]⟩ .f32) (q : IVec ⟨2, ![4096, 4096]⟩ 32) (s : FVec Ideal ⟨1, ![262144]⟩ .f32)
    (bias : FVec Ideal ⟨1, ![4096]⟩ .f32) (A : FVec Ideal ⟨2, ![8, 4096]⟩ .f32) (B : FVec Ideal ⟨2, ![4096, 8]⟩ .f32)
    (b : Fin 4) (t : Fin 2048) (o : Fin 4096) :
    resultArr x q s bias A B (ix3 b t o) = result x q s bias A B b t o := rfl

/-- A sum against a one-hot row: only the selected term survives (`0 · y = 0` for every extended real `y`). -/
theorem sum_mul_onehot {n : Nat} (f : Fin n → EReal) (k : Fin n) :
    ∑ g : Fin n, f g * (if g = k then (1 : EReal) else 0) = f k := by
  rw [Finset.sum_eq_single k]
  · rw [if_pos rfl, mul_one]
  · intro g _ hg
    rw [if_neg hg, mul_zero]
  · intro h
    exact absurd (Finset.mem_univ k) h

end Cert.QLoRA

end
-- ==== Proof.Arrays.lean ====
/-
  Names, at their literal types, for the arrays the two regions read and write (at any contents `V` a region is
  entered from) and for the six argument arrays as launched.
-/
import proofs.«425300_j35527969472751_1_alg».proof.Proof.Gen.KernelIdeal.Frame
import Idealize.ShloMosaic.PureOps.Ideal

noncomputable section

namespace Cert.KernelIdeal.Arr

open Cert.KernelIdeal Cert.KernelIdeal.Gen
open Idealize.ShloMosaic Idealize.ShloMosaic.TcCoe Idealize.SL.Sem

section AtContents
variable (V : (c : Dev nD) → (b : Ref sig .tc) → Buf (Elt Ideal) ((c : Thread nD τ).loc b))

/-- The codes. -/
abbrev codes (c : Dev nD) : IVec S4096x4096 32 := V c main_arg1
/-- The scales in rows of 64. -/
abbrev scales (c : Dev nD) : FVec Ideal S4096x64 .f32 := V c main_v0
/-- The group matrix. -/
abbrev groups (c : Dev nD) : FVec Ideal S64x4096 .bf16 := V c main_v9
/-- The weights. -/
abbrev wts (c : Dev nD) : FVec Ideal S4096x4096 .bf16 := V c main_v10
/-- The activations with the two leading axes merged. -/
abbrev acts (c : Dev nD) : FVec Ideal S8192x4096 .f32 := V c main_v11
/-- The bias as one row. -/
abbrev biasRow (c : Dev nD) : FVec Ideal S1x4096 .f32 := V c main_v12
/-- The first low-rank factor. -/
abbrev loraA (c : Dev nD) : FVec Ideal S8x4096 .f32 := V c main_arg4
/-- The second low-rank factor. -/
abbrev loraB (c : Dev nD) : FVec Ideal S4096x8 .f32 := V c main_arg5
/-- Region 0's output array after its last grid point. -/
abbrev out0 (c : Dev nD) : FVec Ideal S4096x4096 .bf16 := (dat0 V c).arrAt 3 cfg0.N
/-- Region 1's output array after its last grid point. -/
abbrev out1 (c : Dev nD) : FVec Ideal S8192x4096 .f32 := (dat1 V c).arrAt 5 cfg1.N
end AtContents

section AtLaunch
variable (m : (ℓ : Loc nD τ sig) → Buf (Elt Ideal) ℓ)

abbrev argX (c : Dev nD) : FVec Ideal S4x2048x4096 .f32 := m ((c.tc : Thread nD τ).loc main_arg0)
abbrev argQ (c : Dev nD) : IVec S4096x4096 32 := m ((c.tc : Thread nD τ).loc main_arg1)
abbrev argS (c : Dev nD) : FVec Ideal S262144 .f32 := m ((c.tc : Thread nD τ).loc main_arg2)
abbrev argBias (c : Dev nD) : FVec Ideal S4096 .f32 := m ((c.tc : Thread nD τ).loc main_arg3)
abbrev argA (c : Dev nD) : FVec Ideal S8x4096 .f32 := m ((c.tc : Thread nD τ).loc main_arg4)
abbrev argB (c : Dev nD) : FVec Ideal S4096x8 .f32 := m ((c.tc : Thread nD τ).loc main_arg5)
end AtLaunch

end Cert.KernelIdeal.Arr

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.R0Blocks.lean ====
/-
  Region 0 (the dequantisation call), at any entry contents `V`: after its sixteen grid points the output array holds, at
  `(o, i)`, the level of the code at `(o, i)` times the row-`o` scales summed against column `i` of the group matrix.

  First the body's arithmetic at one entry of a 256 × 4096 block: the sixteen nested selects on "the code equals k" are the
  codebook (a code below sixteen picks its level, any other word falls through to the initial zero), the format changes are
  the identity on the extended reals, and the product into a zero accumulator is the plain sum over the 64 contracted
  columns. Then the blocks: at point t the codes', the scales' and the output's windows sit at block row t and the group
  matrix is read whole, so what point t writes back is block t of ONE function of the three arrays; every row r lies in the
  block of point r / 256, and every point writes back, so the array ends holding that function.
-/
import proofs.«425300_j35527969472751_1_alg».proof.Proof.Gen.KernelIdeal.Frame
import proofs.«425300_j35527969472751_1_alg».proof.Proof.Spec
import proofs.«425300_j35527969472751_1_alg».proof.Proof.LibPlainDot
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import proofs.«425300_j35527969472751_1_alg».proof.Proof.Arrays

set_option maxRecDepth 16384

noncomputable section

open scoped BigOperators

namespace Cert.KernelIdeal.R0

open Cert.KernelIdeal Cert.KernelIdeal.Gen Cert.KernelIdeal.Arr Cert.QLoRA
open Idealize.ShloMosaic Idealize.ShloMosaic.ValueIdx Idealize.ShloMosaic.TcCoe Idealize.SL.Sem
open Idealize.ShloMosaic.Pipeline (Dat)

/-! ## The body's arithmetic at one entry of a block -/

/-- An equality test of two words, used as a select's condition, picks the first operand exactly when they are equal. -/
private theorem select_cmpi_eq {α : Type} (w k : BitVec 32) (a b : α) :
    Scalar.select (IntOp.cmpi .eq w k) a b = if w = k then a else b := by
  unfold Scalar.select IntOp.cmpi
  by_cases h : w = k
  · subst h; simp
  · have hb : (w == k) = false := beq_eq_false_iff_ne.mpr h
    simp [hb, h]

/-- The chain of sixteen selects is the codebook. -/
private theorem chain_eq_level (w : BitVec 32) :
    (if w = 15#32 then Ideal.ofBits .f32 0x3F800000#32 else
     if w = 14#32 then Ideal.ofBits .f32 0x3F3913B3#32 else
     if w = 13#32 then Ideal.ofBits .f32 0x3F1007AB#32 else
     if w = 12#32 then Ideal.ofBits .f32 0x3EE1A4B8#32 else
     if w = 11#32 then Ideal.ofBits .f32 0x3EAD033A#32 else
     if w = 10#32 then Ideal.ofBits .f32 0x3E7C04DD#32 else
     if w = 9#32 then Ideal.ofBits .f32 0x3E24CAE3#32 else
     if w = 8#32 then Ideal.ofBits .f32 0x3DA2FAFF#32 else
     if w = 7#32 then Ideal.ofBits .f32 0x00000000#32 else
     if w = 6#32 then Ideal.ofBits .f32 0xBDBA7871#32 else
     if w = 5#32 then Ideal.ofBits .f32 0xBE3D353F#32 else
     if w = 4#32 then Ideal.ofBits .f32 0xBE91A24D#32 else
     if w = 3#32 then Ideal.ofBits .f32 0xBECA32A0#32 else
     if w = 2#32 then Ideal.ofBits .f32 0xBF066B30#32 else
     if w = 1#32 then Ideal.ofBits .f32 0xBF3239B1#32 else
     if w = 0#32 then Ideal.ofBits .f32 0xBF800000#32 else
     (Ideal.ofBits .f32 0x00000000#32 : EReal)) = level w := by
  by_cases h : w.toNat < 16
  · obtain ⟨n, hn, rfl⟩ : ∃ n : Nat, n < 16 ∧ w = BitVec.ofNat 32 n :=
      ⟨w.toNat, h, by simp⟩
    interval_cases n <;> rfl
  · have hk : ∀ k : Nat, k < 16 → w ≠ BitVec.ofNat 32 k := by
      intro k hk e
      apply h
      rw [e, BitVec.toNat_ofNat]
      omega
    unfold level
    rw [dif_neg h, if_neg (hk 15 (by decide)), if_neg (hk 14 (by decide)), if_neg (hk 13 (by decide)),
      if_neg (hk 12 (by decide)), if_neg (hk 11 (by decide)), if_neg (hk 10 (by decide)), if_neg (hk 9 (by decide)),
      if_neg (hk 8 (by decide)), if_neg (hk 7 (by decide)), if_neg (hk 6 (by decide)), if_neg (hk 5 (by decide)),
      if_neg (hk 4 (by decide)), if_neg (hk 3 (by decide)), if_neg (hk 2 (by decide)), if_neg (hk 1 (by decide)),
      if_neg (hk 0 (by decide))]

/-- A comparison of two vectors of words at an index compares the elements. -/
private theorem cmpi_apply {s : Shape} {w : Nat} (pr : CmpIPredicate) (a b : IVec s w) (i : s.Idx) :
    cmpi pr a b i = IntOp.cmpi pr (a i) (b i) := rfl

/-- The body's product has the plain dimension numbers: rows by contraction times contraction by columns. -/
private theorem dot_plain : dot_S256x64_S64x4096_S256x4096_1_0_0_1_n_n = DotDims.plain 256 64 4096 := rfl

/-- The body's arithmetic at one entry of the block. -/
private theorem pay_apply (x0 : Vec Ideal S256x4096 .i32) (x1 : Vec Ideal S256x64 .f32) (x2 : Vec Ideal S64x4096 .bf16)
    (p : Fin 256) (q : Fin 4096) :
    k0_pay2 x0 (k0_pay1 x0) x1 x2 (ix2 p q) = level (x0 (ix2 p q)) * ∑ g : Fin 64, x1 (ix2 p g) * x2 (ix2 g q) := by
  unfold k0_pay2 k0_pay1
  simp only [truncf_apply, mulf_apply, select_apply, broadcast_apply, cmpi_apply]
  simp only [select_cmpi_eq]
  refine congrArg₂ (· * ·) (chain_eq_level _) ?_
  rw [dot_plain]
  refine (Cert.LibPlainDot.matmul_plain_apply 256 64 4096 none _ _ p q).trans ?_
  refine Finset.sum_congr rfl fun g _ => ?_
  rw [truncf_apply, shapeCast_self, shapeCast_self]

/-! ## The array as one function, and the windows' index maps -/

/-- The weight array's entry as a function of the three arrays the region reads. -/
private def deqAt (cd : IVec S4096x4096 32) (sc : FVec Ideal S4096x64 .f32) (gm : FVec Ideal S64x4096 .bf16) (o i : Fin 4096) : EReal :=
  level (cd (ix2 o i)) * ∑ g : Fin 64, sc (ix2 o g) * gm (ix2 g i)

/-- The weight array as one function of those arrays. -/
private def deq (cd : IVec S4096x4096 32) (sc : FVec Ideal S4096x64 .f32) (gm : FVec Ideal S64x4096 .bf16) : FVec Ideal S4096x4096 .bf16 :=
  fun j => deqAt cd sc gm (j 0) (j 1)

private theorem zeros2 : (![0, 0] : Fin 2 → Nat) = fun _ => 0 := funext fun a => by fin_cases a <;> rfl

/-- The four index maps over the sixteen points: the codes', the scales' and the output's blocks are block row t, the group
    matrix is read whole. -/
private theorem idx_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## From the blocks to the array -/

variable (V : (c : Dev nD) → (b : Ref sig .tc) → Buf (Elt Ideal) ((c : Thread nD τ).loc b))

/-- The codes' block at point t is rows 256 t … 256 t + 255 of the codes. -/
private theorem codes_blk (c : Dev nD) (t : Fin cfg0.N) (p : Fin 256) (q : Fin 4096) (o i : Fin 4096)
    (ho : o.val = 256 * t.val + p.val) (hi : i.val = q.val) :
    (iblk0 V c 0 t : Vec Ideal S256x4096 .i32) (ix2 p q) = codes V c (ix2 o i) := by
  obtain ⟨e0, e1, -⟩ := idx_maps t
  unfold iblk0
  rw [View.read_apply]
  show V c main_arg1 _ = V c main_arg1 _
  congr 1
  funext a
  apply Fin.ext
  match a with
  | ⟨0, _⟩ => show win0_0.index t (0 : Fin 2) * 256 + 1 * p.val = o.val; omega
  | ⟨1, _⟩ => show win0_0.index t (1 : Fin 2) * 4096 + 1 * q.val = i.val; omega

/-- The scales' block at point t is rows 256 t … 256 t + 255 of the scales. -/
private theorem scales_blk (c : Dev nD) (t : Fin cfg0.N) (p : Fin 256) (g : Fin 64) (o : Fin 4096)
    (ho : o.val = 256 * t.val + p.val) :
    (iblk0 V c 1 t : Vec Ideal S256x64 .f32) (ix2 p g) = scales V c (ix2 o g) := by
  obtain ⟨-, -, e0, e1, -⟩ := idx_maps t
  unfold iblk0
  rw [View.read_apply]
  show V c main_v0 _ = V c main_v0 _
  congr 1
  funext a
  apply Fin.ext
  match a with
  | ⟨0, _⟩ => show win0_1.index t (0 : Fin 2) * 256 + 1 * p.val = o.val; omega
  | ⟨1, _⟩ => show win0_1.index t (1 : Fin 2) * 64 + 1 * g.val = g.val; omega

/-- The group matrix's block at every point is the whole matrix. -/
private theorem groups_blk (c : Dev nD) (t : Fin cfg0.N) (g : Fin 64) (q i : Fin 4096) (hi : i.val = q.val) :
    (iblk0 V c 2 t : Vec Ideal S64x4096 .bf16) (ix2 g q) = groups V c (ix2 g i) := by
  obtain ⟨-, -, -, -, e0, e1, -⟩ := idx_maps t
  unfold iblk0
  rw [View.read_apply]
  show V c main_v9 _ = V c main_v9 _
  congr 1
  funext a
  apply Fin.ext
  match a with
  | ⟨0, _⟩ => show win0_2.index t (0 : Fin 2) * 64 + 1 * g.val = g.val; omega
  | ⟨1, _⟩ => show win0_2.index t (1 : Fin 2) * 4096 + 1 * q.val = i.val; omega

/-- What the body leaves at entry (p, q) of point t's block is the weight at row 256 t + p, column q. -/
private theorem blk_entry (c : Dev nD) (t : Fin cfg0.N) (p : Fin 256) (q : Fin 4096) (o i : Fin 4096)
    (ho : o.val = 256 * t.val + p.val) (hi : i.val = q.val) :
    k0_pay2 (iblk0 V c 0 t) (k0_pay1 (iblk0 V c 0 t)) (iblk0 V c 1 t) (iblk0 V c 2 t) (ix2 p q)
      = deqAt (codes V c) (scales V c) (groups V c) o i := by
  rw [pay_apply, codes_blk V c t p q o i ho hi]
  unfold deqAt
  congr 1
  refine Finset.sum_congr rfl fun g _ => ?_
  rw [scales_blk V c t p g o ho, groups_blk V c t g q i hi]

/-- What point t writes back is block t of the weight array. -/
private theorem flushed_eq (c : Dev nD) (t : Fin cfg0.N) :
    (dat0 V c).flushed 3 t = ((cfg0.win 3).blk t).view.read (Elt Ideal) (deq (codes V c) (scales V c) (groups V c)) := by
  show (cfg0.win 3).cut (grid0.coords t) ((dat0 V c).after 3 t) = _
  rw [after0_3]
  unfold out0_3
  rw [View.canon_unit_zero zeros2]
  simp only [View.ld_unit_zero (S := S256x4096) zeros2, View.ld_unit_zero (S := S256x64) zeros2,
    View.ld_unit_zero (S := S64x4096) zeros2]
  obtain ⟨-, -, -, -, -, -, e0, e1⟩ := idx_maps t
  refine funext fun (y : S256x4096.Idx) => ?_
  obtain ⟨p, q, rfl⟩ : ∃ (p : Fin 256) (q : Fin 4096), y = ix2 p q := ⟨y 0, y 1, eq_ix2 y⟩
  show k0_pay2 (iblk0 V c 0 t) (k0_pay1 (iblk0 V c 0 t)) (iblk0 V c 1 t) (iblk0 V c 2 t) (ix2 p q)
    = deqAt (codes V c) (scales V c) (groups V c) ((((cfg0.win 3).blk t).view.emb (ix2 p q)) 0) ((((cfg0.win 3).blk t).view.emb (ix2 p q)) 1)
  refine blk_entry V c t p q _ _ ?_ ?_
  · show win0_3.index t (0 : Fin 2) * 256 + 1 * p.val = 256 * t.val + p.val; omega
  · show win0_3.index t (1 : Fin 2) * 4096 + 1 * q.val = q.val; omega

/-- An entry of the weight array is in point t's block iff each coordinate is in the block's range on its axis. -/
private theorem mem_blk (t : Fin cfg0.N) (i : S4096x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v10).slice (win0_3.rect t)).set ↔ _
  rw [View.set_slice_whole, Rect.mem_set_unit]
  exact Iff.rfl

/-- Row r of the weight array is in the block of point r / 256. -/
private theorem cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 16 := N_0
  let t : Fin cfg0.N := ⟨(i 0).val / 256, by rw [hN]; omega⟩
  obtain ⟨-, -, -, -, -, -, e0, e1⟩ := idx_maps t
  have ht : t.val = (i 0).val / 256 := rfl
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- The weight array after region 0 is that function of the codes, the scales and the group matrix. -/
private theorem out0_eq (c : Dev nD) : out0 V c = deq (codes V c) (scales V c) (groups V c) :=
  (dat0 V c).arrAt_eq_of_cover 3 (deq (codes V c) (scales V c) (groups V c)) (fun t _ => flushed_eq V c t) cover

/-- The weight array after region 0, entry by entry. -/
theorem arr_apply (c : Dev nD) (o i : Fin 4096) :
    out0 V c (ix2 o i) = level (codes V c (ix2 o i)) * ∑ g : Fin 64, scales V c (ix2 o g) * groups V c (ix2 g i) := by
  rw [out0_eq]
  rfl

end Cert.KernelIdeal.R0

end
-- ==== Proof.R1Blocks.lean ====
/-
  Region 1 (the product call), at any entry contents `V`: after its 128 grid points the output array holds, at `(p, o)`,
  row `p` of the activations times row `o` of the weights, plus the bias, plus four times the low-rank correction.
-/
import proofs.«425300_j35527969472751_1_alg».proof.Proof.Gen.KernelIdeal.Frame
import proofs.«425300_j35527969472751_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import proofs.«425300_j35527969472751_1_alg».proof.Proof.Arrays

set_option maxRecDepth 16384

noncomputable section

open scoped BigOperators

namespace Cert.KernelIdeal.R1

open Cert.KernelIdeal Cert.KernelIdeal.Gen Cert.KernelIdeal.Arr Cert.QLoRA
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- A product of an `M × K` matrix with the transpose of an `N × K` matrix (both operands contracted on their second
    axis), accumulated into zero, read at an entry: the sum over the contracted coordinate of the products. -/
private theorem matmul_abT_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (r : Fin M) (q : Fin N) :
    FloatOps.matmul (⟨[1], [1], [0], [0], [], [], w⟩ : DotDims _ _ _) prec A B (constant ⟨2, ![M, N]⟩ .f32 0x00000000#32) (ix2 r q)
      = ∑ k : Fin K, A (ix2 r k) * B (ix2 q k) := by
  rw [Ideal.matmul_constant_zero_apply,
    ← Equiv.sum_comp (contrEquiv1 (⟨[1], [1], [0], [0], [], [], w⟩ : DotDims _ _ _) K rfl rfl).symm]
  refine Finset.sum_congr rfl fun k _ => ?_
  have ck := contrEquiv1_symm_val
    (⟨[1], [1], [0], [0], [], [], w⟩ : DotDims ⟨2, ![M, K]⟩ ⟨2, ![N, K]⟩ ⟨2, ![M, N]⟩) K rfl rfl k
  have hl : (⟨[1], [1], [0], [0], [], [], w⟩ : DotDims ⟨2, ![M, K]⟩ ⟨2, ![N, K]⟩ ⟨2, ![M, N]⟩).lhsIdx (ix2 r q)
      ((contrEquiv1 _ K rfl rfl).symm k) = ix2 r k := by
    funext ax; apply Fin.ext
    match ax with
    | ⟨0, _⟩ => simp [DotDims.lhsIdx]; rfl
    | ⟨1, _⟩ => simp [DotDims.lhsIdx]; exact ck
  have hr : (⟨[1], [1], [0], [0], [], [], w⟩ : DotDims ⟨2, ![M, K]⟩ ⟨2, ![N, K]⟩ ⟨2, ![M, N]⟩).rhsIdx (ix2 r q)
      ((contrEquiv1 _ K rfl rfl).symm k) = ix2 q k := by
    funext ax; apply Fin.ext
    match ax with
    | ⟨0, _⟩ => simp [DotDims.rhsIdx]; rfl
    | ⟨1, _⟩ => simp [DotDims.rhsIdx]; exact ck
  rw [hl, hr]

/-- The three products of the body, each read at an entry. -/
private theorem mm_base (A : FVec Ideal S64x4096 .bf16) (B : FVec Ideal S4096x4096 .bf16) (r : Fin 64) (o : Fin 4096) :
    matmul dot_S64x4096_S4096x4096_S64x4096_1_1_0_0_n_n none A B (constant S64x4096 .f32 0x00000000#32) (ix2 r o)
      = ∑ i : Fin 4096, A (ix2 r i) * B (ix2 o i) :=
  matmul_abT_apply Facts₀.dot_S64x4096_S4096x4096_S64x4096_1_1_0_0_n_n_wf none A B r o

private theorem mm_down (A : FVec Ideal S64x4096 .bf16) (B : FVec Ideal S8x4096 .bf16) (r : Fin 64) (s : Fin 8) :
    matmul dot_S64x4096_S8x4096_S64x8_1_1_0_0_n_n none A B (constant S64x8 .f32 0x00000000#32) (ix2 r s)
      = ∑ i : Fin 4096, A (ix2 r i) * B (ix2 s i) :=
  matmul_abT_apply Facts₀.dot_S64x4096_S8x4096_S64x8_1_1_0_0_n_n_wf none A B r s

private theorem mm_up (A : FVec Ideal S64x8 .bf16) (B : FVec Ideal S4096x8 .bf16) (r : Fin 64) (o : Fin 4096) :
    matmul dot_S64x8_S4096x8_S64x4096_1_1_0_0_n_n none A B (constant S64x4096 .f32 0x00000000#32) (ix2 r o)
      = ∑ s : Fin 8, A (ix2 r s) * B (ix2 o s) :=
  matmul_abT_apply Facts₀.dot_S64x8_S4096x8_S64x4096_1_1_0_0_n_n_wf none A B r o

/-- The body's payload at entry `(r, o)` of the output block, from the five loaded blocks. -/
private theorem pay_apply (x0 : Vec Ideal S64x4096 .f32) (x1 : Vec Ideal S4096x4096 .bf16) (x2 : Vec Ideal S1x4096 .f32)
    (x3 : Vec Ideal S8x4096 .f32) (x4 : Vec Ideal S4096x8 .f32) (r : Fin 64) (o : Fin 4096) :
    k1_pay1 x0 x1 x3 x4 x2 (ix2 r o)
      = ((∑ i : Fin 4096, x0 (ix2 r i) * x1 (ix2 o i)) + x2 (ix2 (0 : Fin 1) o))
        + four * ∑ s : Fin 8, (∑ i : Fin 4096, x0 (ix2 r i) * x3 (ix2 s i)) * x4 (ix2 o s) := by
  unfold k1_pay1
  simp only [shapeCast_self]
  rw [addf_apply, addf_apply, mulf_apply, broadcast_apply, broadcastTo_1b_ab_apply, mm_base, mm_up]
  simp only [truncf_apply, mm_down]
  rfl

/-- Entry `(p, o)` of the array the region leaves: the base product of row `p` of the activations with row `o` of the
    weights, plus the bias, plus four times the low-rank correction. -/
private def entry (c : Dev nD) (p : Fin 8192) (o : Fin 4096) : EReal :=
  ((∑ i : Fin 4096, acts V c (ix2 p i) * wts V c (ix2 o i)) + biasRow V c (ix2 0 o))
    + four * ∑ r : Fin 8, (∑ i : Fin 4096, acts V c (ix2 p i) * loraA V c (ix2 r i)) * loraB V c (ix2 o r)

/-- The same as one array. -/
private def whole (c : Dev nD) : S8192x4096.Idx → Elt Ideal .f32 := fun j => entry V c (j 0) (j 1)

private theorem zeros2 : (![0, 0] : Fin 2 → Nat) = fun _ => 0 := funext fun a => by fin_cases a <;> rfl

/-- The index maps over the grid: the activations' and the output's blocks are the `t`-th group of 64 rows, every other
    window is its whole array. -/
private theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The input blocks at a point, at their literal types. -/
private abbrev actsBlk (c : Dev nD) (t : Fin cfg1.N) : Vec Ideal S64x4096 .f32 := iblk1 V c 0 t
private abbrev wtsBlk (c : Dev nD) (t : Fin cfg1.N) : Vec Ideal S4096x4096 .bf16 := iblk1 V c 1 t
private abbrev biasBlk (c : Dev nD) (t : Fin cfg1.N) : Vec Ideal S1x4096 .f32 := iblk1 V c 2 t
private abbrev loraABlk (c : Dev nD) (t : Fin cfg1.N) : Vec Ideal S8x4096 .f32 := iblk1 V c 3 t
private abbrev loraBBlk (c : Dev nD) (t : Fin cfg1.N) : Vec Ideal S4096x8 .f32 := iblk1 V c 4 t

/-- Row `r` of the activations' block at point `t` is row `64 t + r` of the activations. -/
private theorem actsBlk_apply (c : Dev nD) (t : Fin cfg1.N) (r : Fin 64) (i : Fin 4096) (p : Fin 8192)
    (hp : p.val = t.val * 64 + r.val) : actsBlk V c t (ix2 r i) = acts V c (ix2 p i) := by
  obtain ⟨e0, e1, -⟩ := index_facts t
  unfold actsBlk iblk1
  rw [View.read_apply]
  show V c main_v11 _ = V c main_v11 _
  congr 1
  funext a; apply Fin.ext
  match a with
  | ⟨0, _⟩ => show win1_0.index t (0 : Fin 2) * 64 + 1 * r.val = p.val; omega
  | ⟨1, _⟩ => show win1_0.index t (1 : Fin 2) * 4096 + 1 * i.val = i.val; omega

/-- The other four windows' blocks are their arrays. -/
private theorem wtsBlk_eq (c : Dev nD) (t : Fin cfg1.N) : wtsBlk V c t = wts V c := by
  obtain ⟨-, -, e0, e1, -⟩ := index_facts t
  funext j
  unfold wtsBlk iblk1
  rw [View.read_apply]
  show V c main_v10 _ = V c main_v10 j
  congr 1
  funext a; apply Fin.ext
  match a with
  | ⟨0, _⟩ => show win1_1.index t (0 : Fin 2) * 4096 + 1 * (j 0).val = (j 0).val; omega
  | ⟨1, _⟩ => show win1_1.index t (1 : Fin 2) * 4096 + 1 * (j 1).val = (j 1).val; omega

private theorem biasBlk_eq (c : Dev nD) (t : Fin cfg1.N) : biasBlk V c t = biasRow V c := by
  obtain ⟨-, -, -, -, e0, e1, -⟩ := index_facts t
  funext j
  unfold biasBlk iblk1
  rw [View.read_apply]
  show V c main_v12 _ = V c main_v12 j
  congr 1
  funext a; apply Fin.ext
  match a with
  | ⟨0, _⟩ => show win1_2.index t (0 : Fin 2) * 1 + 1 * (j 0).val = (j 0).val; omega
  | ⟨1, _⟩ => show win1_2.index t (1 : Fin 2) * 4096 + 1 * (j 1).val = (j 1).val; omega

private theorem loraABlk_eq (c : Dev nD) (t : Fin cfg1.N) : loraABlk V c t = loraA V c := by
  obtain ⟨-, -, -, -, -, -, e0, e1, -⟩ := index_facts t
  funext j
  unfold loraABlk iblk1
  rw [View.read_apply]
  show V c main_arg4 _ = V c main_arg4 j
  congr 1
  funext a; apply Fin.ext
  match a with
  | ⟨0, _⟩ => show win1_3.index t (0 : Fin 2) * 8 + 1 * (j 0).val = (j 0).val; omega
  | ⟨1, _⟩ => show win1_3.index t (1 : Fin 2) * 4096 + 1 * (j 1).val = (j 1).val; omega

private theorem loraBBlk_eq (c : Dev nD) (t : Fin cfg1.N) : loraBBlk V c t = loraB V c := by
  obtain ⟨-, -, -, -, -, -, -, -, e0, e1, -⟩ := index_facts t
  funext j
  unfold loraBBlk iblk1
  rw [View.read_apply]
  show V c main_arg5 _ = V c main_arg5 j
  congr 1
  funext a; apply Fin.ext
  match a with
  | ⟨0, _⟩ => show win1_4.index t (0 : Fin 2) * 4096 + 1 * (j 0).val = (j 0).val; omega
  | ⟨1, _⟩ => show win1_4.index t (1 : Fin 2) * 8 + 1 * (j 1).val = (j 1).val; omega

/-- What point `t` writes back is block `t` of the array `whole`. -/
private theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero zeros2]
  simp only [View.ld_unit_zero (S := S64x4096) zeros2, View.ld_unit_zero (S := S4096x4096) zeros2,
    View.ld_unit_zero (S := S1x4096) zeros2, View.ld_unit_zero (S := S8x4096) zeros2,
    View.ld_unit_zero (S := S4096x8) zeros2]
  show k1_pay1 (actsBlk V c t) (wtsBlk V c t) (loraABlk V c t) (loraBBlk V c t) (biasBlk V c t) = _
  rw [wtsBlk_eq, biasBlk_eq, loraABlk_eq, loraBBlk_eq]
  obtain ⟨-, -, -, -, -, -, -, -, -, -, e0, e1⟩ := index_facts t
  funext j
  obtain ⟨r, o, rfl⟩ : ∃ (r : Fin 64) (o : Fin 4096), j = ix2 r o := ⟨j 0, j 1, eq_ix2 j⟩
  rw [pay_apply, View.read_apply]
  have ht : t.val < 128 := lt_of_lt_of_eq t.isLt N_1
  have hp : t.val * 64 + r.val < 8192 := by have := r.isLt; omega
  have he : ((cfg1.win 5).blk t).view.emb (ix2 r o) = (ix2 (⟨t.val * 64 + r.val, hp⟩ : Fin 8192) o : S8192x4096.Idx) := by
    funext a; apply Fin.ext
    match a with
    | ⟨0, _⟩ => show win1_5.index t (0 : Fin 2) * 64 + 1 * r.val = t.val * 64 + r.val; omega
    | ⟨1, _⟩ => show win1_5.index t (1 : Fin 2) * 4096 + 1 * o.val = o.val; omega
  show _ = whole V c (((cfg1.win 5).blk t).view.emb (ix2 r o))
  rw [he]
  show _ = entry V c ⟨t.val * 64 + r.val, hp⟩ o
  unfold entry
  have ha : ∀ i : Fin 4096, actsBlk V c t (ix2 r i) = acts V c (ix2 (⟨t.val * 64 + r.val, hp⟩ : Fin 8192) i) :=
    fun i => actsBlk_apply V c t r i _ rfl
  simp only [ha]

/-- An entry of the array is in point `t`'s block iff each coordinate is in the block's range on its axis. -/
private theorem mem_blk (t : Fin cfg1.N) (i : S8192x4096.Idx) :
    i ∈ ((cfg1.win 5).blk t).view.set ↔ ∀ a : Fin 2, win1_5.index t a * S64x4096.size a ≤ (i a).val
      ∧ (i a).val < win1_5.index t a * S64x4096.size a + S64x4096.size a := by
  show i ∈ ((View.whole main_v13).slice (win1_5.rect t)).set ↔ _
  rw [View.set_slice_whole, Rect.mem_set_unit]
  exact Iff.rfl

/-- Row `p` lies in the block of point `p / 64`, and every point writes its block back. -/
private theorem cover (i : S8192x4096.Idx) :
    ∃ t : Fin cfg1.N, (cfg1.win 5).flush t = true ∧ i ∈ ((cfg1.win 5).blk t).view.set := by
  have hi0 : (i 0).val < 8192 := (i 0).isLt
  have hi1 : (i 1).val < 4096 := (i 1).isLt
  obtain ⟨t, ht⟩ : ∃ t : Fin cfg1.N, t.val = (i 0).val / 64 :=
    ⟨⟨(i 0).val / 64, by rw [show cfg1.N = 128 from N_1]; omega⟩, rfl⟩
  obtain ⟨-, -, -, -, -, -, -, -, -, -, e0, e1⟩ := index_facts t
  refine ⟨t, flush1_5 t, ?_⟩
  rw [mem_blk]
  intro a
  match a with
  | ⟨0, _⟩ =>
    show win1_5.index t (0 : Fin 2) * 64 ≤ (i 0).val ∧ (i 0).val < win1_5.index t (0 : Fin 2) * 64 + 64
    omega
  | ⟨1, _⟩ =>
    show win1_5.index t (1 : Fin 2) * 4096 ≤ (i 1).val ∧ (i 1).val < win1_5.index t (1 : Fin 2) * 4096 + 4096
    omega

/-- The output array after region 1, entry by entry. -/
theorem arr_apply (c : Dev nD) (p : Fin 8192) (o : Fin 4096) :
    out1 V c (ix2 p o)
      = ((∑ i : Fin 4096, acts V c (ix2 p i) * wts V c (ix2 o i)) + biasRow V c (ix2 0 o))
        + four * ∑ r : Fin 8, (∑ i : Fin 4096, acts V c (ix2 p i) * loraA V c (ix2 r i)) * loraB V c (ix2 o r) := by
  have h : (dat1 V c).arrAt 5 cfg1.N = whole V c :=
    (dat1 V c).arrAt_eq_of_cover 5 (whole V c) (fun t _ => flushed_eq V c t) cover
  show (dat1 V c).arrAt 5 cfg1.N (ix2 p o) = _
  rw [h]
  rfl

end Cert.KernelIdeal.R1

end
-- ==== Proof.HostReads0.lean ====
/-
  What region 0 finds on entry, read back to the launch memory: the codes are the argument itself; the scales are the
  flat scale vector laid out in rows of 64; the group matrix has a one at `(g, i)` exactly when column `i` lies in
  group `g`, that is when `i / 64 = g`, and a zero elsewhere.

  The group matrix is computed before the region from the column numbers `0 … 4095`: each column's group number is
  its floor quotient by 64, spelled as the truncated signed quotient with a correction of one where the signs of the
  operands differ and the remainder is not zero; the matrix entry is the bit "row number = group number" read as a
  number. On naturals below 4096 every word is non-negative, the signed quotient is the natural quotient, and the
  correction never applies: for 0 the remainder is zero, for a positive number the signs agree.
-/
import proofs.«425300_j35527969472751_1_alg».proof.Proof.Gen.KernelIdeal.Frame
import proofs.«425300_j35527969472751_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws
import proofs.«425300_j35527969472751_1_alg».proof.Proof.Arrays

set_option maxRecDepth 16384

noncomputable section

open scoped BigOperators

namespace Cert.KernelIdeal.Host0

open Cert.KernelIdeal Cert.KernelIdeal.Gen Cert.KernelIdeal.Arr Cert.QLoRA
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ### Words of small naturals -/

/-- The word of a natural below 4096 has its sign bit clear. -/
private theorem msb_word (n : ℕ) (hn : n < 4096) : (BitVec.ofNat 32 n).msb = false :=
  BitVec.msb_eq_false_iff_two_mul_lt.mpr (by rw [BitVec.toNat_ofNat]; omega)

/-- The word of a positive natural below 4096 is not the zero word. -/
private theorem word_ne_zero (n : ℕ) (h0 : 0 < n) (hn : n < 4096) : BitVec.ofNat 32 n ≠ (0 : BitVec 32) := by
  intro h
  have h' : (BitVec.ofNat 32 n).toNat = (0 : BitVec 32).toNat := congrArg BitVec.toNat h
  rw [BitVec.toNat_ofNat, Nat.mod_eq_of_lt (show n < 2 ^ 32 by omega)] at h'
  have hz : (0 : BitVec 32).toNat = 0 := rfl
  omega

/-- Two naturals below 2³² have the same word only when they are equal. -/
private theorem word_inj (a b : ℕ) (ha : a < 2 ^ 32) (hb : b < 2 ^ 32) (h : BitVec.ofNat 32 a = BitVec.ofNat 32 b) :
    a = b := by
  have h' := congrArg BitVec.toNat h
  rw [BitVec.toNat_ofNat, BitVec.toNat_ofNat, Nat.mod_eq_of_lt ha, Nat.mod_eq_of_lt hb] at h'
  exact h'

/-- The signed quotient by 64 of a natural below 4096 is the natural quotient: the divisor is neither zero nor minus
    one, and both operands are non-negative, so the signed division is the unsigned one. -/
private theorem divsi_word (n : ℕ) (hn : n < 4096) :
    IntOp.divsi .host (BitVec.ofNat 32 n) 64#32 = BitVec.ofNat 32 (n / 64) := by
  have hcorner : ¬ IntOp.SDivCorner (BitVec.ofNat 32 n) 64#32 := by
    intro hc
    rcases hc with hc | ⟨_, hc⟩ <;> exact absurd hc (by decide)
  have h64 : (64#32 : BitVec 32).msb = false := by decide
  apply BitVec.eq_of_toNat_eq
  simp only [IntOp.divsi, if_neg hcorner, BitVec.sdiv_eq, msb_word n hn, h64, BitVec.udiv_eq, BitVec.toNat_udiv,
    BitVec.toNat_ofNat]
  rw [Nat.mod_eq_of_lt (show n < 2 ^ 32 by omega), Nat.mod_eq_of_lt (show 64 < 2 ^ 32 by omega),
    Nat.mod_eq_of_lt (show n / 64 < 2 ^ 32 by omega)]

/-- A choice whose condition is a conjunction with a clear bit on the left takes its second alternative. -/
private theorem select_and_left {α : Type} (b : BitVec 1) (x y : α) : Scalar.select (IntOp.andi 0#1 b) x y = y := by
  have h : IntOp.andi 0#1 b ≠ 1 := by
    unfold IntOp.andi
    rw [BitVec.zero_and]
    decide
  unfold Scalar.select
  rw [if_neg h]

/-- The floor quotient by 64 in its signed spelling (the truncated quotient, less one when the operands' signs differ
    and the remainder is not zero), at the word of a natural below 4096, is the natural quotient. For 0 the signs
    differ (0 against 1) but the remainder is zero; for a positive natural the signs agree. -/
private theorem floordiv_word (n : ℕ) (hn : n < 4096) :
    Scalar.select
        (IntOp.andi
          (IntOp.cmpi .ne (if BitVec.ofNat 32 n = 0 then (0 : BitVec 32) else if (BitVec.ofNat 32 n).msb then -1 else 1)
            (if (64#32 : BitVec 32) = 0 then (0 : BitVec 32) else if (64#32 : BitVec 32).msb then -1 else 1))
          (IntOp.cmpi .ne (IntOp.remsi .host (BitVec.ofNat 32 n) 64#32) 0#32))
        (IntOp.subi (IntOp.divsi .host (BitVec.ofNat 32 n) 64#32) 1#32)
        (IntOp.divsi .host (BitVec.ofNat 32 n) 64#32)
      = BitVec.ofNat 32 (n / 64) := by
  rcases Nat.eq_zero_or_pos n with h0 | h0
  · subst h0
    decide
  · have hs : (if BitVec.ofNat 32 n = 0 then (0 : BitVec 32) else if (BitVec.ofNat 32 n).msb then -1 else 1) = 1 := by
      rw [if_neg (word_ne_zero n h0 hn), msb_word n hn]
      rfl
    have h64 : (if (64#32 : BitVec 32) = 0 then (0 : BitVec 32) else if (64#32 : BitVec 32).msb then -1 else 1) = 1 := by
      decide
    have hne : IntOp.cmpi .ne (1 : BitVec 32) 1 = 0#1 := by decide
    rw [hs, h64, hne, select_and_left]
    exact divsi_word n hn

/-- The equality bit of two words of naturals below 2³², read as an unsigned number: one when the naturals are equal,
    zero otherwise. -/
private theorem eq_bit_word (a b : ℕ) (ha : a < 2 ^ 32) (hb : b < 2 ^ 32) :
    (FloatOps.uitofp (F := Ideal) .bf16 (IntOp.cmpi .eq (BitVec.ofNat 32 a) (BitVec.ofNat 32 b)) : EReal)
      = if b = a then (1 : EReal) else 0 := by
  show (((IntOp.cmpi .eq (BitVec.ofNat 32 a) (BitVec.ofNat 32 b)).toNat : ℝ) : EReal) = _
  by_cases h : b = a
  · subst h
    rw [if_pos rfl]
    have hbit : IntOp.cmpi .eq (BitVec.ofNat 32 b) (BitVec.ofNat 32 b) = 1#1 := by
      unfold IntOp.cmpi
      simp only [beq_self_eq_true]
      rfl
    rw [hbit]
    show (((1 : ℕ) : ℝ) : EReal) = 1
    rw [Nat.cast_one, EReal.coe_one]
  · rw [if_neg h]
    have hne : BitVec.ofNat 32 a ≠ BitVec.ofNat 32 b := fun e => h (word_inj a b ha hb e).symm
    have hbit : IntOp.cmpi .eq (BitVec.ofNat 32 a) (BitVec.ofNat 32 b) = 0#1 := by
      unfold IntOp.cmpi
      simp only [beq_eq_false_iff_ne.mpr hne]
      rfl
    rw [hbit]
    show (((0 : ℕ) : ℝ) : EReal) = 0
    rw [Nat.cast_zero, EReal.coe_zero]

/-! ### The group matrix as the operations before the region build it -/

/-- A scalar word spread over the 4096 columns. -/
private def spread (b : BitVec 32) : IVec S4096 32 := broadcastInDim S4096 ![] bcast_S_S4096 (constantI S_ 32 b)

/-- The column numbers `0 … 4095` as words. -/
private def colNo : IVec S4096 32 := iotaInDim S4096 32 0

/-- Each column's group number as it is computed: the truncated quotient by 64, less one where the signs of the
    column number and of 64 differ and the remainder is not zero. -/
private def groupNo : IVec S4096 32 :=
  select
    (andi (cmpi .ne (signi colNo) (broadcastInDim S4096 ![] bcast_S_S4096 (signi (constantI S_ 32 64#32))))
      (cmpi .ne (Host.remsi colNo (spread 64#32)) (spread 0#32)))
    (subi (Host.divsi colNo (spread 64#32)) (spread 1#32))
    (Host.divsi colNo (spread 64#32))

/-- The group matrix: the bit "row number = the column's group number", read as a number. The group numbers are laid
    along the rows, the row numbers `0 … 63` along the columns. -/
private def groupMat : FVec Ideal S64x4096 .bf16 :=
  uitofp .bf16
    (cmpi .eq
      (broadcastInDim S64x4096 ![0, 1] bcast_S1x4096_S64x4096_0_1 (broadcastInDim S1x4096 ![1] bcast_S4096_S1x4096_1 groupNo))
      (broadcastInDim S64x4096 ![0, 1] bcast_S64x1_S64x4096_0_1
        (broadcastInDim S64x1 ![0] bcast_S64_S64x1_0 (iotaInDim S64 32 0))))

/-- A column's group number is the word of its natural quotient by 64. -/
private theorem groupNo_apply (k : S4096.Idx) : groupNo k = BitVec.ofNat 32 ((k 0).val / 64) :=
  floordiv_word (k 0).val (k 0).isLt

/-- The index `(a, b)` of a rectangle, in the two spellings used here. -/
private theorem ix2_eq_ij {n0 n1 : Nat} (a : Fin n0) (b : Fin n1) : ix2 a b = StableHlo.Predicate.ij a b := by
  funext d
  match d with
  | ⟨0, _⟩ => rfl
  | ⟨1, _⟩ => rfl

/-- The group matrix at `(g, i)`: the bit "`i / 64` = `g`" on words, read as a number. A vector laid along the rows
    reads at `(g, i)` its entry `i`; one laid along the columns its entry `g`. -/
private theorem groupMat_apply (g : Fin 64) (i : Fin 4096) :
    groupMat (ix2 g i)
      = FloatOps.uitofp (F := Ideal) .bf16 (IntOp.cmpi .eq (BitVec.ofNat 32 (i.val / 64)) (BitVec.ofNat 32 g.val)) := by
  have hcol : broadcastInDim S64x4096 ![0, 1] bcast_S1x4096_S64x4096_0_1
        (broadcastInDim S1x4096 ![1] bcast_S4096_S1x4096_1 groupNo) (ix2 g i) = groupNo (Shape.Idx.ofFin i) := by
    rw [ix2_eq_ij]
    exact StableHlo.Predicate.bcast_cols _ _ groupNo g i
  have hrow : broadcastInDim S64x4096 ![0, 1] bcast_S64x1_S64x4096_0_1
        (broadcastInDim S64x1 ![0] bcast_S64_S64x1_0 (iotaInDim S64 32 0)) (ix2 g i)
        = iotaInDim S64 32 0 (Shape.Idx.ofFin g) := by
    rw [ix2_eq_ij]
    exact StableHlo.Predicate.bcast_rows _ _ (iotaInDim S64 32 0) g i
  show FloatOps.uitofp (F := Ideal) .bf16
      (IntOp.cmpi .eq
        (broadcastInDim S64x4096 ![0, 1] bcast_S1x4096_S64x4096_0_1
          (broadcastInDim S1x4096 ![1] bcast_S4096_S1x4096_1 groupNo) (ix2 g i))
        (broadcastInDim S64x4096 ![0, 1] bcast_S64x1_S64x4096_0_1
          (broadcastInDim S64x1 ![0] bcast_S64_S64x1_0 (iotaInDim S64 32 0)) (ix2 g i))) = _
  rw [hcol, hrow, groupNo_apply]
  rfl

/-! ### The three arrays at region 0's entry -/

/-- The codes at region 0's entry are the argument. -/
theorem V3_q (c : Dev nD) : codes (V3 m ρ) c = argQ m c := by
  dsimp only [codes, argQ, V3, W3, W2, W1, W0, hostOps0, hostOps0_1, hostOps0_2]
  after_results

/-- The scales at region 0's entry: entry `(o, g)` is the flat vector's entry `o·64 + g`. -/
theorem V3_s (c : Dev nD) (o : Fin 4096) (g : Fin 64) :
    scales (V3 m ρ) c (ix2 o g) = argS m c (ix1 ⟨o.val * 64 + g.val, by have := o.isLt; have := g.isLt; omega⟩) := by
  have e : (scales (V3 m ρ) c : S4096x64.Idx → EReal)
      = shapeCast S4096x64 (argS m c : S262144.Idx → EReal) shapeCasts_S262144_S4096x64 := by
    dsimp only [scales, V3, W3, W2, W1, W0, hostOps0, hostOps0_1, hostOps0_2]
    after_results
    rfl
  refine (congrFun e (ix2 o g)).trans ?_
  refine shapeCast_apply _ _ _ _ ?_
  rw [Shape.rowMajor_val_one, Shape.rowMajor_val_two]
  rfl

/-- The group matrix at region 0's entry is one-hot in each column: the one sits in the row `i / 64`. -/
theorem V3_e (c : Dev nD) (g : Fin 64) (i : Fin 4096) :
    groups (V3 m ρ) c (ix2 g i) = if g = (⟨i.val / 64, by have := i.isLt; omega⟩ : Fin 64) then (1 : EReal) else 0 := by
  have e : (groups (V3 m ρ) c : S64x4096.Idx → EReal) = groupMat := by
    dsimp only [groups, V3, W3, W2, W1, W0, hostOps0, hostOps0_1, hostOps0_2]
    after_results
    rfl
  refine (congrFun e (ix2 g i)).trans ?_
  rw [groupMat_apply, eq_bit_word _ _ (by have := i.isLt; omega) (by have := g.isLt; omega)]
  by_cases h : g = (⟨i.val / 64, by have := i.isLt; omega⟩ : Fin 64)
  · rw [if_pos h, if_pos (congrArg Fin.val h)]
  · rw [if_neg h, if_neg (fun hv => h (Fin.ext hv))]

end Cert.KernelIdeal.Host0

end
-- ==== Proof.HostReads1.lean ====
/-
  What region 1 finds on entry, and what the program returns, read back: the weights are what region 0 left; the
  activations are the argument with its two leading axes merged; the bias is the argument as one row; the two low-rank
  factors are the arguments; and the result is region 1's output with its leading axis split again.

  A reshape keeps the row-major position: entry `(b·2048 + t, i)` of the merged array is entry `(b, t, i)` of the
  argument, entry `(0, o)` of the bias row is entry `o` of the bias, and entry `(b, t, o)` of the result is entry
  `(b·2048 + t, o)` of the product.
-/
import proofs.«425300_j35527969472751_1_alg».proof.Proof.Gen.KernelIdeal.Frame
import proofs.«425300_j35527969472751_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import proofs.«425300_j35527969472751_1_alg».proof.Proof.Arrays

set_option maxRecDepth 16384

noncomputable section

open scoped BigOperators

namespace Cert.KernelIdeal.Host1

open Cert.KernelIdeal Cert.KernelIdeal.Gen Cert.KernelIdeal.Arr Cert.QLoRA
open Idealize.ShloMosaic Idealize.ShloMosaic.ValueIdx Idealize.ShloMosaic.TcCoe Idealize.SL.Sem
open Idealize.ShloMosaic.Pipeline (Dat)

open Idealize.ShloMosaic.StableHlo

variable (m : (ℓ : Loc nD τ sig) → Buf (Elt Ideal) ℓ) (ρ : Dev nD → PrngReg)

/-- A buffer no operation of a stretch writes holds after the stretch what it held before. -/
macro "not_written" : tactic =>
  `(tactic| (refine StableHlo.after_of_forall_not_mem _ _ (List.forall_iff_forall_mem.mp ?_)
             simp only [hostOps0, hostOps0_1, hostOps0_2, hostOps1, hostOps2, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

/-- The two reshapes between the regions leave region 0's output alone. -/
theorem V5_w (c : Dev nD) : wts (V5 m ρ) c = out0 (V3 m ρ) c := by
  have h1 : W5 m ρ c (Proc.devRef .tc main_v10) = W4 m ρ c (Proc.devRef .tc main_v10) := by not_written
  exact h1.trans (W4_arr m ρ c 3)

/-- An argument that neither a host operation nor region 0 writes is, after region 0, what was launched. -/
theorem W5_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by not_written
    _ = W1 m ρ c (Proc.devRef .tc main_arg0) := by not_written
    _ = W0 m ρ c (Proc.devRef .tc main_arg0) := by not_written
    _ = m ((c : Thread nD τ).loc main_arg0) := rfl

theorem W5_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by not_written
    _ = W1 m ρ c (Proc.devRef .tc main_arg3) := by not_written
    _ = W0 m ρ c (Proc.devRef .tc main_arg3) := by not_written
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by not_written
    _ = W1 m ρ c (Proc.devRef .tc main_arg4) := by not_written
    _ = W0 m ρ c (Proc.devRef .tc main_arg4) := by not_written
    _ = m ((c : Thread nD τ).loc main_arg4) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by not_written
    _ = W1 m ρ c (Proc.devRef .tc main_arg5) := by not_written
    _ = W0 m ρ c (Proc.devRef .tc main_arg5) := by not_written
    _ = m ((c : Thread nD τ).loc main_arg5) := rfl

theorem V5_A (c : Dev nD) : loraA (V5 m ρ) c = argA m c := by
  have h5 : W5 m ρ c (Proc.devRef .tc main_arg4) = W4 m ρ c (Proc.devRef .tc main_arg4) := by not_written
  exact h5.trans (W4_arg4 m ρ c)

theorem V5_B (c : Dev nD) : loraB (V5 m ρ) c = argB m c := by
  have h5 : W5 m ρ c (Proc.devRef .tc main_arg5) = W4 m ρ c (Proc.devRef .tc main_arg5) := by not_written
  exact h5.trans (W4_arg5 m ρ c)

/-- The merged activations are the reshape of the argument. -/
theorem acts_eq (c : Dev nD) :
    acts (V5 m ρ) c = shapeCast S8192x4096 (argX m c) shapeCasts_S4x2048x4096_S8192x4096 := by
  show StableHlo.after hostOps1 (W4 m ρ c) (Proc.devRef .tc main_v11) = _
  after_results
  rw [W5_arg0]
  rfl

theorem V5_x (c : Dev nD) (b : Fin 4) (t : Fin 2048) (i : Fin 4096) :
    acts (V5 m ρ) c (ix2 ⟨b.val * 2048 + t.val, by have := b.isLt; have := t.isLt; omega⟩ i) = argX m c (ix3 b t i) := by
  rw [acts_eq]
  refine shapeCast_apply _ _ _ _ ?_
  rw [Shape.rowMajor_val_three, Shape.rowMajor_val_two]
  rfl

/-- The bias row is the reshape of the argument. -/
theorem biasRow_eq (c : Dev nD) :
    biasRow (V5 m ρ) c = shapeCast S1x4096 (argBias m c) shapeCasts_S4096_S1x4096 := by
  show StableHlo.after hostOps1 (W4 m ρ c) (Proc.devRef .tc main_v12) = _
  after_results
  rw [W5_arg3]
  rfl

theorem V5_bias (c : Dev nD) (o : Fin 4096) : biasRow (V5 m ρ) c (ix2 0 o) = argBias m c (ix1 o) := by
  rw [biasRow_eq]
  refine shapeCast_apply _ _ _ _ ?_
  rw [Shape.rowMajor_val_one, Shape.rowMajor_val_two]
  show o.val = 0 * 4096 + o.val
  omega

/-- The returned array is the reshape of region 1's output. -/
theorem result_eq (c : Dev nD) :
    (W7 m ρ c (Proc.devRef .tc main_v14) : FVec Ideal S4x2048x4096 .f32)
      = shapeCast S4x2048x4096 (out1 (V5 m ρ) c) shapeCasts_S8192x4096_S4x2048x4096 := by
  show StableHlo.after hostOps2 (W6 m ρ c) (Proc.devRef .tc main_v14) = _
  after_results
  rw [W6_arr m ρ c 5]
  rfl

/-- The returned array: entry `(b, t, o)` is region 1's output at row `b·2048 + t`, column `o`. -/
theorem W7_out (c : Dev nD) (b : Fin 4) (t : Fin 2048) (o : Fin 4096) :
    (W7 m ρ c (Proc.devRef .tc main_v14) : FVec Ideal S4x2048x4096 .f32) (ix3 b t o)
      = out1 (V5 m ρ) c (ix2 ⟨b.val * 2048 + t.val, by have := b.isLt; have := t.isLt; omega⟩ o) := by
  rw [result_eq]
  refine shapeCast_apply _ _ _ _ ?_
  rw [Shape.rowMajor_val_three, Shape.rowMajor_val_two]
  rfl

end Cert.KernelIdeal.Host1

end
-- ==== Proof.KernelValue.lean ====
/-
  The kernel program's result is the specification, entry by entry.

  The returned entry `(b, t, o)` is region 1's output at row `b·2048 + t`: that row of the activations against row `o`
  of the weights, plus the bias, plus four times the low-rank correction. The weights are what region 0 left: at
  `(o, i)` the level of the code times the row-`o` scales summed against column `i` of the group matrix; that column is
  one-hot with its one in row `i / 64`, so the sum is the single scale `o·64 + i/64`.
-/
import proofs.«425300_j35527969472751_1_alg».proof.Proof.Gen.KernelIdeal.Frame
import proofs.«425300_j35527969472751_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import proofs.«425300_j35527969472751_1_alg».proof.Proof.Arrays
import proofs.«425300_j35527969472751_1_alg».proof.Proof.R0Blocks
import proofs.«425300_j35527969472751_1_alg».proof.Proof.R1Blocks
import proofs.«425300_j35527969472751_1_alg».proof.Proof.HostReads0
import proofs.«425300_j35527969472751_1_alg».proof.Proof.HostReads1

set_option maxRecDepth 16384

noncomputable section

open scoped BigOperators

namespace Cert.KernelIdeal.KV

open Cert.KernelIdeal Cert.KernelIdeal.Gen Cert.KernelIdeal.Arr Cert.QLoRA
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The weights region 1 reads are the specified weight matrix. -/
theorem wts_eq (c : Dev nD) (o i : Fin 4096) : wts (V5 m ρ) c (ix2 o i) = weight (argQ m c) (argS m c) o i := by
  rw [Host1.V5_w, R0.arr_apply, Host0.V3_q]
  unfold weight
  refine congrArg (level (argQ m c (ix2 o i)) * ·) ?_
  have hterm : ∀ g : Fin 64, scales (V3 m ρ) c (ix2 o g) * groups (V3 m ρ) c (ix2 g i)
      = argS m c (ix1 ⟨o.val * 64 + g.val, by have := o.isLt; have := g.isLt; omega⟩)
        * (if g = (⟨i.val / 64, by have := i.isLt; omega⟩ : Fin 64) then (1 : EReal) else 0) := fun g => by
    rw [Host0.V3_s, Host0.V3_e]
  rw [Finset.sum_congr rfl fun g _ => hterm g]
  exact sum_mul_onehot (fun g : Fin 64 => argS m c (ix1 ⟨o.val * 64 + g.val, by have := o.isLt; have := g.isLt; omega⟩))
    ⟨i.val / 64, by have := i.isLt; omega⟩

/-- The kernel program's returned array is the specified result array. -/
theorem value (c : Dev nD) :
    (W7 m ρ c (Proc.devRef .tc main_v14) : FVec Ideal S4x2048x4096 .f32)
      = resultArr (argX m c) (argQ m c) (argS m c) (argBias m c) (argA m c) (argB m c) := by
  funext j
  obtain ⟨b, t, o, rfl⟩ : ∃ (b : Fin 4) (t : Fin 2048) (o : Fin 4096), j = ix3 b t o := ⟨j 0, j 1, j 2, eq_ix3 j⟩
  rw [resultArr_ix3, Host1.W7_out, R1.arr_apply, Host1.V5_bias, Host1.V5_A, Host1.V5_B]
  unfold result
  have hbase : ∀ i : Fin 4096,
      acts (V5 m ρ) c (ix2 ⟨b.val * 2048 + t.val, by have := b.isLt; have := t.isLt; omega⟩ i) * wts (V5 m ρ) c (ix2 o i)
        = argX m c (ix3 b t i) * weight (argQ m c) (argS m c) o i := fun i => by
    rw [Host1.V5_x, wts_eq]
  have hlow : ∀ r : Fin 8,
      (∑ i : Fin 4096, acts (V5 m ρ) c (ix2 ⟨b.val * 2048 + t.val, by have := b.isLt; have := t.isLt; omega⟩ i) * argA m c (ix2 r i))
        = ∑ i : Fin 4096, argX m c (ix3 b t i) * argA m c (ix2 r i) := fun r =>
    Finset.sum_congr rfl fun i _ => by rw [Host1.V5_x]
  rw [Finset.sum_congr rfl fun i _ => hbase i, Finset.sum_congr rfl fun r _ => congrArg (· * argB m c (ix2 o r)) (hlow r)]

end Cert.KernelIdeal.KV

end
-- ==== Proof.RefTerm.lean ====
/-
  The reference program's result as ONE term of its six arguments: the codes with negative values wrapped by 16, the
  codebook gathered at them, the levels regrouped in rows of 64 and scaled group by group, the weight matrix
  contracted with the activations, the bias added, and four times the two low-rank contractions added.
-/
import proofs.«425300_j35527969472751_1_alg».proof.Defs
import proofs.«425300_j35527969472751_1_alg».proof.Proof.Gen.ReferenceIdeal
import proofs.«425300_j35527969472751_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Hand

open Cert.ReferenceIdeal Cert.ReferenceIdeal.Gen Cert.QLoRA
open Idealize.ShloMosaic Idealize.ShloMosaic.ValueIdx Idealize.ShloMosaic.TcCoe Idealize.SL.Sem Idealize.ShloMosaic.StableHlo

variable {F : FTy → Type} [FloatOps F]

/-- The codebook as the program's constant table. -/
def table : FVec F S16 .f32 := fun i => FloatOps.ofBits .f32 (lit0 (S16.rowMajor i))

/-- The codes as the gather takes them: a negative code has 16 added. -/
def wrapped (q : IVec S4096x4096 32) : IVec S4096x4096 32 :=
  select (cmpi .slt q (broadcastInDim S4096x4096 ![] bcast_S_S4096x4096 (constantI S_ 32 0#32)))
    (addi q (broadcastInDim S4096x4096 ![] bcast_S_S4096x4096 (constantI S_ 32 16#32))) q

/-- The weight matrix: gathered levels, regrouped in rows of 64, scaled, laid out again. -/
def weights (q : IVec S4096x4096 32) (s : FVec F S262144 .f32) : FVec F S4096x4096 .f32 :=
  shapeCast S4096x4096
    (mulf
      (shapeCast S262144x64
        (Host.gather gather_S16_S4096x4096x1_S4096x4096_n_0_n_n_0_2_1 (table (F := F))
          (broadcastInDim S4096x4096x1 ![0, 1] bcast_S4096x4096_S4096x4096x1_0_1 (wrapped q)))
        shapeCasts_S4096x4096_S262144x64)
      (broadcastInDim S262144x64 ![0, 1] bcast_S262144x1_S262144x64_0_1 (broadcastInDim S262144x1 ![0] bcast_S262144_S262144x1_0 s)))
    shapeCasts_S262144x64_S4096x4096

/-- The result: base product plus bias, plus four times the low-rank correction. -/
def refTerm (x : FVec F S4x2048x4096 .f32) (q : IVec S4096x4096 32) (s : FVec F S262144 .f32) (bias : FVec F S4096 .f32)
    (A : FVec F S8x4096 .f32) (B : FVec F S4096x8 .f32) : FVec F S4x2048x4096 .f32 :=
  addf
    (addf (Host.dotGeneral dot_S4x2048x4096_S4096x4096_S4x2048x4096_2_1_01_0_n_n none x (weights q s))
      (broadcastInDim S4x2048x4096 ![0, 1, 2] bcast_S1x1x4096_S4x2048x4096_0_1_2 (broadcastInDim S1x1x4096 ![2] bcast_S4096_S1x1x4096_2 bias)))
    (mulf (broadcastInDim S4x2048x4096 ![] bcast_S_S4x2048x4096 (constant S_ .f32 0x40800000#32))
      (Host.dotGeneral dot_S4x2048x8_S4096x8_S4x2048x4096_2_1_01_0_n_n none
        (Host.dotGeneral dot_S4x2048x4096_S8x4096_S4x2048x8_2_1_01_0_n_n none x A) B))

end Cert.ReferenceIdeal.Hand

end
-- ==== Proof.RefRun.lean ====
/-
  The reference program run: its @main is a straight line of host operations, so every weakly fair execution
  terminates with the result buffer at the operations' composed term of the arguments (`refTerm`) and the arguments
  unchanged.
-/
import proofs.«425300_j35527969472751_1_alg».proof.Defs
import proofs.«425300_j35527969472751_1_alg».proof.Proof.Gen.ReferenceIdeal
import proofs.«425300_j35527969472751_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«425300_j35527969472751_1_alg».proof.Proof.RefTerm

noncomputable section

open scoped BigOperators

namespace Cert.ReferenceIdeal.Hand

open Cert.ReferenceIdeal Cert.ReferenceIdeal.Gen Cert.QLoRA
open Idealize.ShloMosaic Idealize.ShloMosaic.ValueIdx Idealize.ShloMosaic.TcCoe Idealize.SL.Sem Idealize.ShloMosaic.StableHlo

variable {F : FTy → Type} [FloatOps F]

/-- The program's twenty-five operations, in program order: the codebook constant, the wrap of negative codes
    (compare with zero, add sixteen, select), the gather, the regrouping in rows of 64 and the scaling, the base
    contraction with the bias, the two low-rank contractions, and the final scale by four and sum. -/
abbrev ops : List (HloOp τ sig (Elt F)) :=
  [ nullary main_cst (fun i => FloatOps.ofBits .f32 (lit0 (S16.rowMajor i))),
    nullary main_c (constantI S_ 32 0#32),
    unary main_c main_v0 (broadcastInDim S4096x4096 ![] bcast_S_S4096x4096 : (⟨S_, .i32⟩ : BufTy).Contents (Elt F) → (⟨S4096x4096, .i32⟩ : BufTy).Contents (Elt F)),
    binary main_arg1 main_v0 main_v1 (cmpi .slt : (⟨S4096x4096, .i32⟩ : BufTy).Contents (Elt F) → (⟨S4096x4096, .i32⟩ : BufTy).Contents (Elt F) → (⟨S4096x4096, .i1⟩ : BufTy).Contents (Elt F)),
    nullary main_c_0 (constantI S_ 32 16#32),
    unary main_c_0 main_v2 (broadcastInDim S4096x4096 ![] bcast_S_S4096x4096 : (⟨S_, .i32⟩ : BufTy).Contents (Elt F) → (⟨S4096x4096, .i32⟩ : BufTy).Contents (Elt F)),
    binary main_arg1 main_v2 main_v3 (addi : (⟨S4096x4096, .i32⟩ : BufTy).Contents (Elt F) → (⟨S4096x4096, .i32⟩ : BufTy).Contents (Elt F) → (⟨S4096x4096, .i32⟩ : BufTy).Contents (Elt F)),
    ternary main_v1 main_v3 main_arg1 main_v4 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v4 main_v5 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_cst main_v5 main_v6 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    reshape main_v6 main_v7 rfl shapeCasts_S4096x4096_S262144x64,
    unary main_arg2 main_v8 (broadcastInDim S262144x1 ![0] bcast_S262144_S262144x1_0 : (⟨S262144, .f32⟩ : BufTy).Contents (Elt F) → (⟨S262144x1, .f32⟩ : BufTy).Contents (Elt F)),
    unary main_v8 main_v9 (broadcastInDim S262144x64 ![0, 1] bcast_S262144x1_S262144x64_0_1 : (⟨S262144x1, .f32⟩ : BufTy).Contents (Elt F) → (⟨S262144x64, .f32⟩ : BufTy).Contents (Elt F)),
    binary main_v7 main_v9 main_v10 (mulf : (⟨S262144x64, .f32⟩ : BufTy).Contents (Elt F) → (⟨S262144x64, .f32⟩ : BufTy).Contents (Elt F) → (⟨S262144x64, .f32⟩ : BufTy).Contents (Elt F)),
    reshape main_v10 main_v11 rfl shapeCasts_S262144x64_S4096x4096,
    binary main_arg0 main_v11 main_v12 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg3 main_v13 (broadcastInDim S1x1x4096 ![2] bcast_S4096_S1x1x4096_2 : (⟨S4096, .f32⟩ : BufTy).Contents (Elt F) → (⟨S1x1x4096, .f32⟩ : BufTy).Contents (Elt F)),
    unary main_v13 main_v14 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v12 main_v14 main_v15 (addf : (⟨S4x2048x4096, .f32⟩ : BufTy).Contents (Elt F) → (⟨S4x2048x4096, .f32⟩ : BufTy).Contents (Elt F) → (⟨S4x2048x4096, .f32⟩ : BufTy).Contents (Elt F)),
    binary main_arg0 main_arg4 main_v16 ((fun l r => Host.dotGeneral dot_S4x2048x4096_S8x4096_S4x2048x8_2_1_01_0_n_n none l r) : (⟨S4x2048x4096, .f32⟩ : BufTy).Contents (Elt F) → (⟨S8x4096, .f32⟩ : BufTy).Contents (Elt F) → (⟨S4x2048x8, .f32⟩ : BufTy).Contents (Elt F)),
    binary main_v16 main_arg5 main_v17 ((fun l r => Host.dotGeneral dot_S4x2048x8_S4096x8_S4x2048x4096_2_1_01_0_n_n none l r) : (⟨S4x2048x8, .f32⟩ : BufTy).Contents (Elt F) → (⟨S4096x8, .f32⟩ : BufTy).Contents (Elt F) → (⟨S4x2048x4096, .f32⟩ : BufTy).Contents (Elt F)),
    nullary main_cst_1 (constant S_ .f32 0x40800000#32),
    unary main_cst_1 main_v18 (broadcastInDim S4x2048x4096 ![] bcast_S_S4x2048x4096 : (⟨S_, .f32⟩ : BufTy).Contents (Elt F) → (⟨S4x2048x4096, .f32⟩ : BufTy).Contents (Elt F)),
    binary main_v18 main_v17 main_v19 (mulf : (⟨S4x2048x4096, .f32⟩ : BufTy).Contents (Elt F) → (⟨S4x2048x4096, .f32⟩ : BufTy).Contents (Elt F) → (⟨S4x2048x4096, .f32⟩ : BufTy).Contents (Elt F)),
    binary main_v15 main_v19 main_v20 (addf : (⟨S4x2048x4096, .f32⟩ : BufTy).Contents (Elt F) → (⟨S4x2048x4096, .f32⟩ : BufTy).Contents (Elt F) → (⟨S4x2048x4096, .f32⟩ : BufTy).Contents (Elt F)) ]

/-- The program is the straight line of those operations. -/
theorem main_eq (c : Dev nD) : main (F := F) c = seq ops := rfl

/-- The signature scopes no buffer and no semaphore to a region. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., unary_bufs_sub .., unary_bufs_sub .., binary_bufs_sub .., binary_bufs_sub .., binary_bufs_sub .., nullary_bufs_sub .., unary_bufs_sub .., binary_bufs_sub .., binary_bufs_sub ..⟩

/-- The result buffer after the operations, from any contents `V`: `refTerm` of `V` at the six arguments. Each
    intermediate buffer is written once and read after, so the fold of the operations' results composes their
    functions in program order; the two regroupings keep the element type, so their transports are the identity. -/
theorem after_main_v20 (V : Valuation τ sig (Elt F)) :
    after (ops (F := F)) V (Proc.devRef .tc main_v20)
      = refTerm (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  rfl

/-- Every weakly fair execution of the reference terminates, the result at `refTerm` of the arguments, the arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
        = refTerm (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v20).trans (after_main_v20 _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.Hand

end
-- ==== Proof.RefValue.lean ====
/-
  The reference's term is the specification, entry by entry, when every code lies in `0 … 15`: the wrap then leaves a
  code alone and the gather reads the codebook at the code; regrouping in rows of 64 and back pairs entry `(o, i)`
  with scale `o·64 + i/64`; each contraction is the plain sum over its one contracted axis.
-/
import proofs.«425300_j35527969472751_1_alg».proof.Defs
import proofs.«425300_j35527969472751_1_alg».proof.Proof.Gen.ReferenceIdeal
import proofs.«425300_j35527969472751_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«425300_j35527969472751_1_alg».proof.Proof.RefTerm

noncomputable section

open scoped BigOperators

namespace Cert.ReferenceIdeal.Hand

open Cert.ReferenceIdeal Cert.ReferenceIdeal.Gen Cert.QLoRA
open Idealize.ShloMosaic Idealize.ShloMosaic.ValueIdx Idealize.ShloMosaic.TcCoe Idealize.SL.Sem Idealize.ShloMosaic.StableHlo

/-! ### Words: a code in `0 … 15` -/

/-- A word whose signed value lies in `0 … 15` has that value as its unsigned one. -/
private theorem toNat_of_range {v : BitVec 32} (h0 : 0 ≤ v.toInt) (h1 : v.toInt < 16) :
    v.toInt = (v.toNat : Int) ∧ v.toNat < 16 := by
  rw [BitVec.toInt_eq_toNat_cond] at h0 h1
  rw [BitVec.toInt_eq_toNat_cond]
  have := v.isLt
  split_ifs at h0 h1 ⊢ with hc
  · exact ⟨rfl, by omega⟩
  · omega

/-- A word that is not negative is not below zero in the signed order. -/
private theorem cmpi_slt_zero {v : BitVec 32} (h0 : 0 ≤ v.toInt) : IntOp.cmpi .slt v 0#32 = 0#1 := by
  show BitVec.ofBool (v.slt 0#32) = 0#1
  have : v.slt 0#32 = false := by
    unfold BitVec.slt
    rw [decide_eq_false_iff_not, BitVec.toInt_zero]
    omega
  rw [this]; rfl

/-- The wrap leaves a code in range alone: the comparison with zero fails, so the select takes the code itself. -/
private theorem wrapped_apply (q : IVec S4096x4096 32) (hq : ∀ j : S4096x4096.Idx, 0 ≤ (q j).toInt ∧ (q j).toInt < 16)
    (j : S4096x4096.Idx) : wrapped q j = q j := by
  show Scalar.select (IntOp.cmpi .slt (q j) 0#32) (IntOp.addi (q j) 16#32) (q j) = q j
  rw [cmpi_slt_zero (hq j).1, select_zero]

/-- The program's constant table and the codebook list the same sixteen words. -/
private theorem lit0_eq_word (k : Fin 16) : lit0 k = word k := by
  fin_cases k <;> rfl

/-! ### The weight matrix at an entry -/

/-- The constant table at position `n` is the codebook's level `n`. -/
private theorem table_apply (n : Nat) (hn : n < 16) :
    table (F := Ideal) (ix1 (⟨n, hn⟩ : Fin 16)) = Ideal.ofBits .f32 (word ⟨n, hn⟩) := by
  show Ideal.ofBits .f32 (lit0 (S16.rowMajor (ix1 (⟨n, hn⟩ : Fin 16)))) = _
  have hpos : S16.rowMajor (ix1 (⟨n, hn⟩ : Fin 16)) = ⟨n, hn⟩ := Fin.ext (by rw [Shape.rowMajor_val_one])
  rw [hpos]
  exact congrArg (Ideal.ofBits .f32) (lit0_eq_word ⟨n, hn⟩)

/-- The table at the clamped signed value of a word `w` that is a code `v` in `0 … 15` is that code's level: the
    signed value is the unsigned one, and the clamp at 15 does nothing. -/
private theorem table_at (v : BitVec 32) (h0 : 0 ≤ v.toInt) (h1 : v.toInt < 16) (w : BitVec 32) (hw : w = v)
    (pf : min w.toInt.toNat (16 - 1) < 16) :
    table (F := Ideal) (ix1 (⟨min w.toInt.toNat (16 - 1), pf⟩ : Fin 16)) = level v := by
  subst hw
  obtain ⟨hint, hlt⟩ := toNat_of_range h0 h1
  have hmin : min w.toInt.toNat (16 - 1) = w.toNat := by
    rw [hint, Int.toNat_natCast]; omega
  have hfin : (⟨min w.toInt.toNat (16 - 1), pf⟩ : Fin 16) = ⟨w.toNat, hlt⟩ := Fin.ext hmin
  rw [hfin, table_apply]
  unfold level
  rw [dif_pos hlt]

/-- Entry `(o, i)` of the weight matrix. The two regroupings pair entry `(o, i)` of the `[4096, 4096]` layout with
    entry `(o·64 + i/64, i % 64)` of the `[262144, 64]` one (both sit at row-major position `o·4096 + i`); there the
    gathered level is the level of code `(o, i)` and the broadcast scale is scale `o·64 + i/64`. -/
private theorem weights_apply (q : IVec S4096x4096 32) (s : FVec Ideal S262144 .f32)
    (hq : ∀ j : S4096x4096.Idx, 0 ≤ (q j).toInt ∧ (q j).toInt < 16) (o i : Fin 4096) :
    weights (F := Ideal) q s (ix2 o i) = weight q s o i := by
  have ho := o.isLt
  have hi := i.isLt
  unfold weights weight
  rw [shapeCast_apply _ shapeCasts_S262144x64_S4096x4096 (ix2 o i)
    (ix2 (⟨o.val * 64 + i.val / 64, by omega⟩ : Fin 262144) (⟨i.val % 64, by omega⟩ : Fin 64))
    (by
      rw [Shape.rowMajor_val_two, Shape.rowMajor_val_two]
      show (o.val * 64 + i.val / 64) * 64 + i.val % 64 = o.val * 4096 + i.val
      omega)]
  rw [mulf_apply]
  congr 1
  · -- the level: back through the inner regrouping to entry (o, i), then the gather at the wrapped code
    refine (shapeCast_apply _ shapeCasts_S4096x4096_S262144x64 _ (ix2 o i) (by
      rw [Shape.rowMajor_val_two, Shape.rowMajor_val_two]
      show o.val * 4096 + i.val = (o.val * 64 + i.val / 64) * 64 + i.val % 64
      omega)).trans ?_
    show Host.gather (takeDims 16 4096 4096 gather_S16_S4096x4096x1_S4096x4096_n_0_n_n_0_2_1_wf) _ _ _ = _
    rw [gather_take_apply (by decide)]
    refine table_at (q (ix2 o i)) (hq _).1 (hq _).2 _ ?_ _
    refine (broadcastInDim_apply _ bcast_S4096x4096_S4096x4096x1_0_1 _ _ (ix2 o i) (fun a => by
      match a with
      | ⟨0, _⟩ => rfl
      | ⟨1, _⟩ => rfl)).trans ?_
    exact wrapped_apply q hq _
  · -- the scale: one scale per row of 64, the same in every column
    refine (broadcastInDim_apply _ bcast_S262144x1_S262144x64_0_1 _ _
      (ix2 (⟨o.val * 64 + i.val / 64, by omega⟩ : Fin 262144) (0 : Fin 1)) (fun a => by
        match a with
        | ⟨0, _⟩ => rfl
        | ⟨1, _⟩ => rfl)).trans ?_
    refine (broadcastInDim_apply _ bcast_S262144_S262144x1_0 _ _
      (ix1 (⟨o.val * 64 + i.val / 64, by omega⟩ : Fin 262144)) (fun a => by
        match a with
        | ⟨0, _⟩ => rfl)).trans ?_
    rfl

/-! ### The base product: activations `[4, 2048, 4096]` against weights `[4096, 4096]`, both contracted on their last axis -/

private theorem base_lhs0 (i : S4x2048x4096.Idx) (k : dot_S4x2048x4096_S4096x4096_S4x2048x4096_2_1_01_0_n_n.contr.Idx) :
    (dot_S4x2048x4096_S4096x4096_S4x2048x4096_2_1_01_0_n_n.lhsIdx i k 0).val = (i 0).val := by
  unfold DotDims.lhsIdx
  rw [dif_neg (show ¬(0 : Fin S4x2048x4096.rank) ∈ dot_S4x2048x4096_S4096x4096_S4x2048x4096_2_1_01_0_n_n.lhsBatch by decide),
    dif_pos (show (0 : Fin S4x2048x4096.rank) ∈ dot_S4x2048x4096_S4096x4096_S4x2048x4096_2_1_01_0_n_n.lhsNonContracting by decide)]
  rfl

private theorem base_lhs1 (i : S4x2048x4096.Idx) (k : dot_S4x2048x4096_S4096x4096_S4x2048x4096_2_1_01_0_n_n.contr.Idx) :
    (dot_S4x2048x4096_S4096x4096_S4x2048x4096_2_1_01_0_n_n.lhsIdx i k 1).val = (i 1).val := by
  unfold DotDims.lhsIdx
  rw [dif_neg (show ¬(1 : Fin S4x2048x4096.rank) ∈ dot_S4x2048x4096_S4096x4096_S4x2048x4096_2_1_01_0_n_n.lhsBatch by decide),
    dif_pos (show (1 : Fin S4x2048x4096.rank) ∈ dot_S4x2048x4096_S4096x4096_S4x2048x4096_2_1_01_0_n_n.lhsNonContracting by decide)]
  rfl

private theorem base_lhs2 (i : S4x2048x4096.Idx) (k : dot_S4x2048x4096_S4096x4096_S4x2048x4096_2_1_01_0_n_n.contr.Idx) :
    (dot_S4x2048x4096_S4096x4096_S4x2048x4096_2_1_01_0_n_n.lhsIdx i k 2).val = (k ⟨0, by decide⟩).val :=
  dot_S4x2048x4096_S4096x4096_S4x2048x4096_2_1_01_0_n_n.lhsIdx_val_of_single rfl i k

private theorem base_rhs0 (i : S4x2048x4096.Idx) (k : dot_S4x2048x4096_S4096x4096_S4x2048x4096_2_1_01_0_n_n.contr.Idx) :
    (dot_S4x2048x4096_S4096x4096_S4x2048x4096_2_1_01_0_n_n.rhsIdx i k 0).val = (i 2).val := by
  unfold DotDims.rhsIdx
  rw [dif_neg (show ¬(0 : Fin S4096x4096.rank) ∈ dot_S4x2048x4096_S4096x4096_S4x2048x4096_2_1_01_0_n_n.rhsBatch by decide),
    dif_pos (show (0 : Fin S4096x4096.rank) ∈ dot_S4x2048x4096_S4096x4096_S4x2048x4096_2_1_01_0_n_n.rhsNonContracting by decide)]
  rfl

private theorem base_rhs1 (i : S4x2048x4096.Idx) (k : dot_S4x2048x4096_S4096x4096_S4x2048x4096_2_1_01_0_n_n.contr.Idx) :
    (dot_S4x2048x4096_S4096x4096_S4x2048x4096_2_1_01_0_n_n.rhsIdx i k 1).val = (k ⟨0, by decide⟩).val :=
  dot_S4x2048x4096_S4096x4096_S4x2048x4096_2_1_01_0_n_n.rhsIdx_val_of_single rfl i k

private theorem base_apply (l : FVec Ideal S4x2048x4096 .f32) (r : FVec Ideal S4096x4096 .f32) (b : Fin 4) (t : Fin 2048) (o : Fin 4096) :
    Host.dotGeneral dot_S4x2048x4096_S4096x4096_S4x2048x4096_2_1_01_0_n_n none l r (ix3 b t o) = ∑ k : Fin 4096, l (ix3 b t k) * r (ix2 o k) := by
  simp only [Host.dotGeneral]
  rw [Ideal.dotGeneral_apply, ← Equiv.sum_comp (contrEquiv1 dot_S4x2048x4096_S4096x4096_S4x2048x4096_2_1_01_0_n_n 4096 rfl rfl).symm]
  refine Finset.sum_congr rfl fun k _ => ?_
  have hk := contrEquiv1_symm_val dot_S4x2048x4096_S4096x4096_S4x2048x4096_2_1_01_0_n_n 4096 rfl rfl k
  have el : dot_S4x2048x4096_S4096x4096_S4x2048x4096_2_1_01_0_n_n.lhsIdx (ix3 b t o) ((contrEquiv1 dot_S4x2048x4096_S4096x4096_S4x2048x4096_2_1_01_0_n_n 4096 rfl rfl).symm k) = ix3 b t k :=
    funext fun a => Fin.ext (by
      match a with
      | ⟨0, _⟩ => exact base_lhs0 _ _
      | ⟨1, _⟩ => exact base_lhs1 _ _
      | ⟨2, _⟩ => exact (base_lhs2 _ _).trans hk)
  have er : dot_S4x2048x4096_S4096x4096_S4x2048x4096_2_1_01_0_n_n.rhsIdx (ix3 b t o) ((contrEquiv1 dot_S4x2048x4096_S4096x4096_S4x2048x4096_2_1_01_0_n_n 4096 rfl rfl).symm k) = ix2 o k :=
    funext fun a => Fin.ext (by
      match a with
      | ⟨0, _⟩ => exact base_rhs0 _ _
      | ⟨1, _⟩ => exact (base_rhs1 _ _).trans hk)
  rw [el, er]

/-! ### The low-rank down projection: activations `[4, 2048, 4096]` against `A : [8, 4096]` -/

private theorem down_lhs0 (i : S4x2048x8.Idx) (k : dot_S4x2048x4096_S8x4096_S4x2048x8_2_1_01_0_n_n.contr.Idx) :
    (dot_S4x2048x4096_S8x4096_S4x2048x8_2_1_01_0_n_n.lhsIdx i k 0).val = (i 0).val := by
  unfold DotDims.lhsIdx
  rw [dif_neg (show ¬(0 : Fin S4x2048x4096.rank) ∈ dot_S4x2048x4096_S8x4096_S4x2048x8_2_1_01_0_n_n.lhsBatch by decide),
    dif_pos (show (0 : Fin S4x2048x4096.rank) ∈ dot_S4x2048x4096_S8x4096_S4x2048x8_2_1_01_0_n_n.lhsNonContracting by decide)]
  rfl

private theorem down_lhs1 (i : S4x2048x8.Idx) (k : dot_S4x2048x4096_S8x4096_S4x2048x8_2_1_01_0_n_n.contr.Idx) :
    (dot_S4x2048x4096_S8x4096_S4x2048x8_2_1_01_0_n_n.lhsIdx i k 1).val = (i 1).val := by
  unfold DotDims.lhsIdx
  rw [dif_neg (show ¬(1 : Fin S4x2048x4096.rank) ∈ dot_S4x2048x4096_S8x4096_S4x2048x8_2_1_01_0_n_n.lhsBatch by decide),
    dif_pos (show (1 : Fin S4x2048x4096.rank) ∈ dot_S4x2048x4096_S8x4096_S4x2048x8_2_1_01_0_n_n.lhsNonContracting by decide)]
  rfl

private theorem down_lhs2 (i : S4x2048x8.Idx) (k : dot_S4x2048x4096_S8x4096_S4x2048x8_2_1_01_0_n_n.contr.Idx) :
    (dot_S4x2048x4096_S8x4096_S4x2048x8_2_1_01_0_n_n.lhsIdx i k 2).val = (k ⟨0, by decide⟩).val :=
  dot_S4x2048x4096_S8x4096_S4x2048x8_2_1_01_0_n_n.lhsIdx_val_of_single rfl i k

private theorem down_rhs0 (i : S4x2048x8.Idx) (k : dot_S4x2048x4096_S8x4096_S4x2048x8_2_1_01_0_n_n.contr.Idx) :
    (dot_S4x2048x4096_S8x4096_S4x2048x8_2_1_01_0_n_n.rhsIdx i k 0).val = (i 2).val := by
  unfold DotDims.rhsIdx
  rw [dif_neg (show ¬(0 : Fin S8x4096.rank) ∈ dot_S4x2048x4096_S8x4096_S4x2048x8_2_1_01_0_n_n.rhsBatch by decide),
    dif_pos (show (0 : Fin S8x4096.rank) ∈ dot_S4x2048x4096_S8x4096_S4x2048x8_2_1_01_0_n_n.rhsNonContracting by decide)]
  rfl

private theorem down_rhs1 (i : S4x2048x8.Idx) (k : dot_S4x2048x4096_S8x4096_S4x2048x8_2_1_01_0_n_n.contr.Idx) :
    (dot_S4x2048x4096_S8x4096_S4x2048x8_2_1_01_0_n_n.rhsIdx i k 1).val = (k ⟨0, by decide⟩).val :=
  dot_S4x2048x4096_S8x4096_S4x2048x8_2_1_01_0_n_n.rhsIdx_val_of_single rfl i k

private theorem down_apply (l : FVec Ideal S4x2048x4096 .f32) (r : FVec Ideal S8x4096 .f32) (b : Fin 4) (t : Fin 2048) (o : Fin 8) :
    Host.dotGeneral dot_S4x2048x4096_S8x4096_S4x2048x8_2_1_01_0_n_n none l r (ix3 b t o) = ∑ k : Fin 4096, l (ix3 b t k) * r (ix2 o k) := by
  simp only [Host.dotGeneral]
  rw [Ideal.dotGeneral_apply, ← Equiv.sum_comp (contrEquiv1 dot_S4x2048x4096_S8x4096_S4x2048x8_2_1_01_0_n_n 4096 rfl rfl).symm]
  refine Finset.sum_congr rfl fun k _ => ?_
  have hk := contrEquiv1_symm_val dot_S4x2048x4096_S8x4096_S4x2048x8_2_1_01_0_n_n 4096 rfl rfl k
  have el : dot_S4x2048x4096_S8x4096_S4x2048x8_2_1_01_0_n_n.lhsIdx (ix3 b t o) ((contrEquiv1 dot_S4x2048x4096_S8x4096_S4x2048x8_2_1_01_0_n_n 4096 rfl rfl).symm k) = ix3 b t k :=
    funext fun a => Fin.ext (by
      match a with
      | ⟨0, _⟩ => exact down_lhs0 _ _
      | ⟨1, _⟩ => exact down_lhs1 _ _
      | ⟨2, _⟩ => exact (down_lhs2 _ _).trans hk)
  have er : dot_S4x2048x4096_S8x4096_S4x2048x8_2_1_01_0_n_n.rhsIdx (ix3 b t o) ((contrEquiv1 dot_S4x2048x4096_S8x4096_S4x2048x8_2_1_01_0_n_n 4096 rfl rfl).symm k) = ix2 o k :=
    funext fun a => Fin.ext (by
      match a with
      | ⟨0, _⟩ => exact down_rhs0 _ _
      | ⟨1, _⟩ => exact (down_rhs1 _ _).trans hk)
  rw [el, er]

/-! ### The low-rank up projection: `[4, 2048, 8]` against `B : [4096, 8]` -/

private theorem up_lhs0 (i : S4x2048x4096.Idx) (k : dot_S4x2048x8_S4096x8_S4x2048x4096_2_1_01_0_n_n.contr.Idx) :
    (dot_S4x2048x8_S4096x8_S4x2048x4096_2_1_01_0_n_n.lhsIdx i k 0).val = (i 0).val := by
  unfold DotDims.lhsIdx
  rw [dif_neg (show ¬(0 : Fin S4x2048x8.rank) ∈ dot_S4x2048x8_S4096x8_S4x2048x4096_2_1_01_0_n_n.lhsBatch by decide),
    dif_pos (show (0 : Fin S4x2048x8.rank) ∈ dot_S4x2048x8_S4096x8_S4x2048x4096_2_1_01_0_n_n.lhsNonContracting by decide)]
  rfl

private theorem up_lhs1 (i : S4x2048x4096.Idx) (k : dot_S4x2048x8_S4096x8_S4x2048x4096_2_1_01_0_n_n.contr.Idx) :
    (dot_S4x2048x8_S4096x8_S4x2048x4096_2_1_01_0_n_n.lhsIdx i k 1).val = (i 1).val := by
  unfold DotDims.lhsIdx
  rw [dif_neg (show ¬(1 : Fin S4x2048x8.rank) ∈ dot_S4x2048x8_S4096x8_S4x2048x4096_2_1_01_0_n_n.lhsBatch by decide),
    dif_pos (show (1 : Fin S4x2048x8.rank) ∈ dot_S4x2048x8_S4096x8_S4x2048x4096_2_1_01_0_n_n.lhsNonContracting by decide)]
  rfl

private theorem up_lhs2 (i : S4x2048x4096.Idx) (k : dot_S4x2048x8_S4096x8_S4x2048x4096_2_1_01_0_n_n.contr.Idx) :
    (dot_S4x2048x8_S4096x8_S4x2048x4096_2_1_01_0_n_n.lhsIdx i k 2).val = (k ⟨0, by decide⟩).val :=
  dot_S4x2048x8_S4096x8_S4x2048x4096_2_1_01_0_n_n.lhsIdx_val_of_single rfl i k

private theorem up_rhs0 (i : S4x2048x4096.Idx) (k : dot_S4x2048x8_S4096x8_S4x2048x4096_2_1_01_0_n_n.contr.Idx) :
    (dot_S4x2048x8_S4096x8_S4x2048x4096_2_1_01_0_n_n.rhsIdx i k 0).val = (i 2).val := by
  unfold DotDims.rhsIdx
  rw [dif_neg (show ¬(0 : Fin S4096x8.rank) ∈ dot_S4x2048x8_S4096x8_S4x2048x4096_2_1_01_0_n_n.rhsBatch by decide),
    dif_pos (show (0 : Fin S4096x8.rank) ∈ dot_S4x2048x8_S4096x8_S4x2048x4096_2_1_01_0_n_n.rhsNonContracting by decide)]
  rfl

private theorem up_rhs1 (i : S4x2048x4096.Idx) (k : dot_S4x2048x8_S4096x8_S4x2048x4096_2_1_01_0_n_n.contr.Idx) :
    (dot_S4x2048x8_S4096x8_S4x2048x4096_2_1_01_0_n_n.rhsIdx i k 1).val = (k ⟨0, by decide⟩).val :=
  dot_S4x2048x8_S4096x8_S4x2048x4096_2_1_01_0_n_n.rhsIdx_val_of_single rfl i k

private theorem up_apply (l : FVec Ideal S4x2048x8 .f32) (r : FVec Ideal S4096x8 .f32) (b : Fin 4) (t : Fin 2048) (o : Fin 4096) :
    Host.dotGeneral dot_S4x2048x8_S4096x8_S4x2048x4096_2_1_01_0_n_n none l r (ix3 b t o) = ∑ k : Fin 8, l (ix3 b t k) * r (ix2 o k) := by
  simp only [Host.dotGeneral]
  rw [Ideal.dotGeneral_apply, ← Equiv.sum_comp (contrEquiv1 dot_S4x2048x8_S4096x8_S4x2048x4096_2_1_01_0_n_n 8 rfl rfl).symm]
  refine Finset.sum_congr rfl fun k _ => ?_
  have hk := contrEquiv1_symm_val dot_S4x2048x8_S4096x8_S4x2048x4096_2_1_01_0_n_n 8 rfl rfl k
  have el : dot_S4x2048x8_S4096x8_S4x2048x4096_2_1_01_0_n_n.lhsIdx (ix3 b t o) ((contrEquiv1 dot_S4x2048x8_S4096x8_S4x2048x4096_2_1_01_0_n_n 8 rfl rfl).symm k) = ix3 b t k :=
    funext fun a => Fin.ext (by
      match a with
      | ⟨0, _⟩ => exact up_lhs0 _ _
      | ⟨1, _⟩ => exact up_lhs1 _ _
      | ⟨2, _⟩ => exact (up_lhs2 _ _).trans hk)
  have er : dot_S4x2048x8_S4096x8_S4x2048x4096_2_1_01_0_n_n.rhsIdx (ix3 b t o) ((contrEquiv1 dot_S4x2048x8_S4096x8_S4x2048x4096_2_1_01_0_n_n 8 rfl rfl).symm k) = ix2 o k :=
    funext fun a => Fin.ext (by
      match a with
      | ⟨0, _⟩ => exact up_rhs0 _ _
      | ⟨1, _⟩ => exact (up_rhs1 _ _).trans hk)
  rw [el, er]

/-! ### The result -/

/-- The bias, broadcast first to `[1, 1, 4096]` and then over the batch and the rows, read at `(b, t, o)`, is entry `o`. -/
private theorem bias_apply (bias : FVec Ideal S4096 .f32) (b : Fin 4) (t : Fin 2048) (o : Fin 4096) :
    broadcastInDim S4x2048x4096 ![0, 1, 2] bcast_S1x1x4096_S4x2048x4096_0_1_2
      (broadcastInDim S1x1x4096 ![2] bcast_S4096_S1x1x4096_2 bias) (ix3 b t o) = bias (ix1 o) := by
  refine (broadcastInDim_apply _ bcast_S1x1x4096_S4x2048x4096_0_1_2 _ _ (ix3 (0 : Fin 1) (0 : Fin 1) o) (fun a => by
    match a with
    | ⟨0, _⟩ => rfl
    | ⟨1, _⟩ => rfl
    | ⟨2, _⟩ => rfl)).trans ?_
  exact broadcastInDim_apply _ bcast_S4096_S1x1x4096_2 _ _ (ix1 o) (fun a => by
    match a with
    | ⟨0, _⟩ => rfl)

/-- The broadcast scalar constant reads the factor four everywhere. -/
private theorem four_apply (j : S4x2048x4096.Idx) :
    broadcastInDim S4x2048x4096 ![] bcast_S_S4x2048x4096 (constant (F := Ideal) S_ .f32 0x40800000#32) j = four := rfl

/-- With every code in range the reference's term is the specified result array. -/
theorem refTerm_eq (x : FVec Ideal S4x2048x4096 .f32) (q : IVec S4096x4096 32) (s : FVec Ideal S262144 .f32)
    (bias : FVec Ideal S4096 .f32) (A : FVec Ideal S8x4096 .f32) (B : FVec Ideal S4096x8 .f32)
    (hq : ∀ j : S4096x4096.Idx, 0 ≤ (q j).toInt ∧ (q j).toInt < 16) :
    refTerm (F := Ideal) x q s bias A B = resultArr x q s bias A B := by
  funext j
  obtain ⟨b, t, o, rfl⟩ : ∃ (b : Fin 4) (t : Fin 2048) (o : Fin 4096), j = ix3 b t o := ⟨j 0, j 1, j 2, eq_ix3 j⟩
  rw [resultArr_ix3]
  unfold refTerm result
  rw [addf_apply, addf_apply, mulf_apply, base_apply, up_apply, bias_apply, four_apply]
  congr 1
  · congr 1
    exact Finset.sum_congr rfl fun i _ => by rw [weights_apply q s hq]
  · congr 1
    exact Finset.sum_congr rfl fun r _ => by rw [down_apply]

end Cert.ReferenceIdeal.Hand

end
-- ==== Proof.PreRange.lean ====
/-
  What the precondition says of the codes: its last two conjuncts are "every code is at least 0" and "every code is
  below 16", each an all-reduction of a signed comparison; the whole predicate being all ones makes each of them hold
  at every entry.
-/
import proofs.«425300_j35527969472751_1_alg».proof.Defs
import proofs.«425300_j35527969472751_1_alg».proof.Proof.Gen.Pre_finite_inputs
import proofs.«425300_j35527969472751_1_alg».proof.Proof.Gen.KernelIdeal
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Idealize.ShloMosaic.TcCoe Idealize.SL.Sem

/-- The rank-0 shape has one index: an all-reduction's result is a single word. -/
private instance scalarIdx : Subsingleton Cert.Pre_finite_inputs.S_.Idx := ⟨fun a b => funext fun d => d.elim0⟩

/-- The signed values of the two bounds the codes are compared with. -/
private theorem toInt_zero : (0#32 : BitVec 32).toInt = 0 := by decide
private theorem toInt_sixteen : (16#32 : BitVec 32).toInt = 16 := by decide

/-- The predicate's tail, decoded. It is a conjunction `(… ∧ all (q ≥ 0)) ∧ all (q < 16)` of one-bit words: being 1
    at the single result index, both outer conjuncts are 1; an all-reduction by `and` that is 1 met a 1 at every
    entry; and a signed comparison word that is 1 says the order of its operands' signed values. The compared arrays
    are the constants 0 and 16 spread over the code array's shape, so at entry `j` they are those constants. -/
private theorem codes_of_tail {F : FTy → Type} [FloatOps F] (q : IVec Cert.Pre_finite_inputs.S4096x4096 32)
    (B : FVec F Cert.Pre_finite_inputs.S4096x8 .f32) (p : IVec Cert.Pre_finite_inputs.S_ 1)
    (r : IVec Cert.Pre_finite_inputs.S8x4096 1)
    (e : Cert.Pre_finite_inputs.fn_part1 (F := F) q B p r ix0 = 1#1) (j : Cert.Pre_finite_inputs.S4096x4096.Idx) :
    0 ≤ (q j).toInt ∧ (q j).toInt < 16 := by
  unfold Cert.Pre_finite_inputs.fn_part1 at e
  obtain ⟨hrest, hlt⟩ := IntOp.andi_eq_one.1 e
  obtain ⟨-, hge⟩ := IntOp.andi_eq_one.1 hrest
  have ge : (0#32 : BitVec 32).toInt ≤ (q j).toInt := IntOp.cmpi_sge.1 (Host.reduce_andi_all _ _ _ _ _ hge j)
  have lt : (q j).toInt < (16#32 : BitVec 32).toInt := IntOp.cmpi_slt.1 (Host.reduce_andi_all _ _ _ _ _ hlt j)
  rw [toInt_zero] at ge
  rw [toInt_sixteen] at lt
  exact ⟨ge, lt⟩

/-- Under the precondition every code of the code array lies in `0 … 15` (read as a signed integer). -/
theorem range_of_pre (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S4096x4096.Idx) :
    0 ≤ ((m ((c.tc : Thread Cert.KernelIdeal.nD Cert.KernelIdeal.τ).loc Cert.KernelIdeal.main_arg1) : Cert.KernelIdeal.S4096x4096.Idx → BitVec 32) j).toInt
    ∧ ((m ((c.tc : Thread Cert.KernelIdeal.nD Cert.KernelIdeal.τ).loc Cert.KernelIdeal.main_arg1) : Cert.KernelIdeal.S4096x4096.Idx → BitVec 32) j).toInt < 16 := by
  have e := congrFun (h c) ix0
  unfold Cert.Pre_finite_inputs.fn at e
  exact codes_of_tail _ _ _ _ e j

end Cert.PreRange

end
-- ==== Proof.lean ====
/-
  The certificate's five claims.

  Under the precondition — every float input finite and every code in `0 … 15` — the kernel program and the reference
  compute one function of the arguments: `x · Wᵀ + bias + 4 · (x · Aᵀ) · Bᵀ` with `W[o, i]` the codebook level of the
  code at `(o, i)` times the scale of its group of 64. The kernel builds `W` in a first call (a chain of sixteen selects
  for the level, and a product with a one-hot group matrix for the scale) and contracts in a second; the reference
  gathers the level from the codebook and contracts on the host. The two frames of the kernel programs are the generated
  ones; the reference's frame is its run with the result dropped; the ideal pass rewrote nothing.
-/
import proofs.«425300_j35527969472751_1_alg».proof.Defs
import proofs.«425300_j35527969472751_1_alg».proof.Proof.Gen.Kernel
import proofs.«425300_j35527969472751_1_alg».proof.Proof.Gen.Kernel.Skeleton
import proofs.«425300_j35527969472751_1_alg».proof.Proof.Gen.Kernel.Launch
import proofs.«425300_j35527969472751_1_alg».proof.Proof.Gen.Kernel.Points
import proofs.«425300_j35527969472751_1_alg».proof.Proof.Gen.Kernel.Frame
import proofs.«425300_j35527969472751_1_alg».proof.Proof.Gen.KernelIdeal
import proofs.«425300_j35527969472751_1_alg».proof.Proof.Gen.KernelIdeal.Skeleton
import proofs.«425300_j35527969472751_1_alg».proof.Proof.Gen.KernelIdeal.Launch
import proofs.«425300_j35527969472751_1_alg».proof.Proof.Gen.KernelIdeal.Points
import proofs.«425300_j35527969472751_1_alg».proof.Proof.Gen.KernelIdeal.Frame
import proofs.«425300_j35527969472751_1_alg».proof.Proof.Gen.ReferenceIdeal
import proofs.«425300_j35527969472751_1_alg».proof.Proof.Gen.Pre_finite_inputs
import proofs.«425300_j35527969472751_1_alg».proof.Proof.KernelRun
import proofs.«425300_j35527969472751_1_alg».proof.Proof.KernelValue
import proofs.«425300_j35527969472751_1_alg».proof.Proof.RefRun
import proofs.«425300_j35527969472751_1_alg».proof.Proof.RefValue
import proofs.«425300_j35527969472751_1_alg».proof.Proof.PreRange
import Idealize.ShloMosaic.Adequacy
import Idealize.ShloMosaic.Init

noncomputable section

namespace Cert.Proof

open Idealize.ShloMosaic Idealize.SL.Sem

/-- The two idealized programs end with equal results: both result arrays are the specified one. -/
theorem algebraic : Cert.algebraic_KernelIdeal_ReferenceIdeal := by
  intro m ρ m' ρ' hpre hagree
  refine ⟨fun c => Cert.QLoRA.resultArr (Cert.KernelIdeal.Arr.argX m c) (Cert.KernelIdeal.Arr.argQ m c) (Cert.KernelIdeal.Arr.argS m c)
      (Cert.KernelIdeal.Arr.argBias m c) (Cert.KernelIdeal.Arr.argA m c) (Cert.KernelIdeal.Arr.argB m c), ?_, ?_⟩
  · exact (θ_run Cert.KernelIdeal.defs _ _).mono
      (fun _ h c => ⟨(h c).1.trans (Cert.KernelIdeal.KV.value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Hand.run (F := Ideal) m' ρ')
    obtain ⟨e0, e1, e2, e3, e4, e5⟩ := hagree c
    rw [e0, e1, e2, e3, e4, e5]
    exact Cert.ReferenceIdeal.Hand.refTerm_eq _ _ _ _ _ _ (Cert.PreRange.range_of_pre m hpre c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Hand.run (F := Ideal) m ρ),
  trivial,
  algebraic⟩

end Cert.Proof

end
